-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2x1024 : Shape := ⟨3, ![2048, 2, 1024]⟩
abbrev S32000x1024 : Shape := ⟨2, ![32000, 1024]⟩
abbrev S2048x2 : Shape := ⟨2, ![2048, 2]⟩
abbrev S_ : Shape := ⟨0, ![]⟩

class Facts : Prop where
  bcast_S_S2048x2x1024 : S_.BroadcastsInDim S2048x2x1024 (![] : Fin 0 → Fin S2048x2x1024.rank)
  reducesTo_S2048x2x1024_S_d0_1_2 : S2048x2x1024.ReducesTo [0, 1, 2] S_
  h_S_ : 0 < S_.numel
  bcast_S_S32000x1024 : S_.BroadcastsInDim S32000x1024 (![] : Fin 0 → Fin S32000x1024.rank)
  reducesTo_S32000x1024_S_d0_1 : S32000x1024.ReducesTo [0, 1] S_

variable [Facts]

def fn {F : FTy → Type} [FloatOps F] (main_arg0 : FVec F S2048x2x1024 .f32) (main_arg1 : FVec F S32000x1024 .f32) (main_arg2 : IVec S2048x2 32) : IVec S_ 1 :=
  let main_v0 : FVec F S2048x2x1024 .f32 := Host.absf main_arg0
  let main_cst : FVec F S_ .f32 := constant S_ .f32 0x7F800000#32
  let main_v1 : FVec F S2048x2x1024 .f32 := broadcastInDim S2048x2x1024 ![] bcast_S_S2048x2x1024 main_cst
  let main_v2 : IVec S2048x2x1024 1 := cmpf .olt main_v0 main_v1
  let main_c : IVec S_ 1 := constantI S_ 1 1#1
  let main_v3 : IVec S_ 1 := (fun x v => Host.reduce IntOp.andi x v reducesTo_S2048x2x1024_S_d0_1_2 h_S_) main_v2 main_c
  let main_v4 : FVec F S32000x1024 .f32 := Host.absf main_arg1
  let main_cst_0 : FVec F S_ .f32 := constant S_ .f32 0x7F800000#32
  let main_v5 : FVec F S32000x1024 .f32 := broadcastInDim S32000x1024 ![] bcast_S_S32000x1024 main_cst_0
  let main_v6 : IVec S32000x1024 1 := cmpf .olt main_v4 main_v5
  let main_c_1 : IVec S_ 1 := constantI S_ 1 1#1
  let main_v7 : IVec S_ 1 := (fun x v => Host.reduce IntOp.andi x v reducesTo_S32000x1024_S_d0_1 h_S_) main_v6 main_c_1
  let main_v8 : IVec S_ 1 := andi main_v3 main_v7
  main_v8
-- ==== Kernel.lean ====
abbrev S2048x2x1024 : Shape := ⟨3, ![2048, 2, 1024]⟩
abbrev S32000x1024 : Shape := ⟨2, ![32000, 1024]⟩
abbrev S2048x2 : Shape := ⟨2, ![2048, 2]⟩
abbrev S4096x1024 : Shape := ⟨2, ![4096, 1024]⟩
abbrev S4096x1 : Shape := ⟨2, ![4096, 1]⟩
abbrev S1024x1024 : Shape := ⟨2, ![1024, 1024]⟩
abbrev S1280x1024 : Shape := ⟨2, ![1280, 1024]⟩
abbrev S1024x1 : Shape := ⟨2, ![1024, 1]⟩
abbrev S1024x1280 : Shape := ⟨2, ![1024, 1280]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S2048x2x1024, .f32⟩
  | .hbm, ⟨1, _⟩ => ⟨S32000x1024, .f32⟩
  | .hbm, ⟨2, _⟩ => ⟨S2048x2, .i32⟩
  | .hbm, ⟨3, _⟩ => ⟨S4096x1024, .f32⟩
  | .hbm, ⟨4, _⟩ => ⟨S4096x1024, .bf16⟩
  | .hbm, ⟨5, _⟩ => ⟨S4096x1, .i32⟩
  | .hbm, ⟨6, _⟩ => ⟨S4096x1, .f32⟩
  | .hbm, ⟨7, _⟩ => ⟨S2048x2, .f32⟩
  | .local _ .vmem, ⟨0, _⟩ => ⟨S1024x1024, .bf16⟩
  | .local _ .vmem, ⟨1, _⟩ => ⟨S1024x1024, .bf16⟩
  | .local _ .vmem, ⟨2, _⟩ => ⟨S1280x1024, .f32⟩
  | .local _ .vmem, ⟨3, _⟩ => ⟨S1280x1024, .f32⟩
  | .local _ .vmem, ⟨4, _⟩ => ⟨S1024x1, .i32⟩
  | .local _ .vmem, ⟨5, _⟩ => ⟨S1024x1, .i32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | _, _ => ⟨S2048x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 25], ![false, false]⟩

def k0_cond2 (i : grid0.Coords) : BitVec 1 :=
  let arg1 : BitVec 32 := BitVec.ofNat 32 (i 1).val
  let c24_i32 : BitVec 32 := 24#32
  let v45 : BitVec 1 := Scalar.cmpi .eq arg1 c24_i32
  let v46 : BitVec 32 := Scalar.extui v45
  let c0_i32_22 : BitVec 32 := 0#32
  let v47 : BitVec 1 := Scalar.cmpi .ne v46 c0_i32_22
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S2048x2x1024_S4096x1024 : S2048x2x1024.ShapeCasts S4096x1024
  bitsLt_bf16_f32 : FTy.bits .bf16 < FTy.bits .f32
  shapeCasts_S2048x2_S4096x1 : S2048x2.ShapeCasts S4096x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1280x1024_S1280x1024_0_0 : ∀ a, (![0, 0] : Fin 2 → Nat) a + S1280x1024.size a ≤ S1280x1024.size a
  h_S1280x1024 : 0 < S1280x1024.numel
  reduces_S1024x1280_S1024 : S1024x1280.Reduces [1] S1024
  shapeCasts_S1024_S1024x1 : S1024.ShapeCasts S1024x1
  broadcasts_S1024x1_S1024x1280 : S1024x1.Broadcasts S1024x1280
  iota_S1024x1280_d1_w32 : S1024x1280.Iotas .tc 32 [1]
  shapeCasts_S4096x1_S2048x2 : S4096x1.ShapeCasts S2048x2
  dot_S1024x1024_S1280x1024_S1024x1280_1_1_0_0_n_n_wf : DotDims.WF S1024x1024 S1280x1024 S1024x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x1024.size a ≤ S32000x1024.size a
  hwx0_1 : ∀ i : grid0.Coords, EltTy.bits .f32 = 32 ∨ (Rect.block (s := S32000x1024) S1280x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .i32 = 32 ∨ (Rect.block (s := S4096x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)

variable [Facts₀]

def dot_S1024x1024_S1280x1024_S1024x1280_1_1_0_0_n_n : DotDims S1024x1024 S1280x1024 S1024x1280 where
  lhsContracting := [1]
  rhsContracting := [1]
  lhsNonContracting := [0]
  rhsNonContracting := [0]
  lhsBatch := []
  rhsBatch := []
  wf := dot_S1024x1024_S1280x1024_S1024x1280_1_1_0_0_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1280x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x2x1024 : Shape := ⟨3, ![2048, 2, 1024]⟩
abbrev S32000x1024 : Shape := ⟨2, ![32000, 1024]⟩
abbrev S2048x2 : Shape := ⟨2, ![2048, 2]⟩
abbrev S2048x2x32000 : Shape := ⟨3, ![2048, 2, 32000]⟩
abbrev S_ : Shape := ⟨0, ![]⟩
abbrev S2048x2x1 : Shape := ⟨3, ![2048, 2, 1]⟩
abbrev S2048x2x1x1 : Shape := ⟨4, ![2048, 2, 1, 1]⟩
abbrev S1 : Shape := ⟨1, ![1]⟩
abbrev S1x1x1x1 : Shape := ⟨4, ![1, 1, 1, 1]⟩

abbrev nBuf : Space → Nat
  | .hbm => 53
  | .vmem => 0
  | .smem => 0
  | _ => 0

abbrev bufTy : (tb : Table) → Fin (tcTables nBuf tb) → BufTy
  | .hbm, ⟨0, _⟩ => ⟨S2048x2x1024, .f32⟩
  | .hbm, ⟨1, _⟩ => ⟨S32000x1024, .f32⟩
  | .hbm, ⟨2, _⟩ => ⟨S2048x2, .i32⟩
  | .hbm, ⟨3, _⟩ => ⟨S2048x2x32000, .f32⟩
  | .hbm, ⟨4, _⟩ => ⟨S_, .f32⟩
  | .hbm, ⟨5, _⟩ => ⟨S2048x2, .f32⟩
  | .hbm, ⟨6, _⟩ => ⟨S2048x2x1, .f32⟩
  | .hbm, ⟨7, _⟩ => ⟨S2048x2x32000, .f32⟩
  | .hbm, ⟨8, _⟩ => ⟨S2048x2x32000, .f32⟩
  | .hbm, ⟨9, _⟩ => ⟨S_, .i32⟩
  | .hbm, ⟨10, _⟩ => ⟨S2048x2, .i32⟩
  | .hbm, ⟨11, _⟩ => ⟨S2048x2, .i1⟩
  | .hbm, ⟨12, _⟩ => ⟨S_, .i32⟩
  | .hbm, ⟨13, _⟩ => ⟨S2048x2, .i32⟩
  | .hbm, ⟨14, _⟩ => ⟨S2048x2, .i1⟩
  | .hbm, ⟨15, _⟩ => ⟨S2048x2, .i1⟩
  | .hbm, ⟨16, _⟩ => ⟨S_, .i32⟩
  | .hbm, ⟨17, _⟩ => ⟨S_, .i32⟩
  | .hbm, ⟨18, _⟩ => ⟨S2048x2, .i32⟩
  | .hbm, ⟨19, _⟩ => ⟨S2048x2, .i32⟩
  | .hbm, ⟨20, _⟩ => ⟨S2048x2x1, .i32⟩
  | .hbm, ⟨21, _⟩ => ⟨S_, .i32⟩
  | .hbm, ⟨22, _⟩ => ⟨S2048x2x1, .i32⟩
  | .hbm, ⟨23, _⟩ => ⟨S2048x2x1, .i1⟩
  | .hbm, ⟨24, _⟩ => ⟨S_, .i32⟩
  | .hbm, ⟨25, _⟩ => ⟨S2048x2x1, .i32⟩
  | .hbm, ⟨26, _⟩ => ⟨S2048x2x1, .i32⟩
  | .hbm, ⟨27, _⟩ => ⟨S2048x2x1, .i32⟩
  | .hbm, ⟨28, _⟩ => ⟨S2048x2x1x1, .i32⟩
  | .hbm, ⟨29, _⟩ => ⟨S1, .i32⟩
  | .hbm, ⟨30, _⟩ => ⟨S_, .i32⟩
  | .hbm, ⟨31, _⟩ => ⟨S2048x2x1x1, .i32⟩
  | .hbm, ⟨32, _⟩ => ⟨S2048x2x1x1, .i1⟩
  | .hbm, ⟨33, _⟩ => ⟨S1x1x1x1, .i32⟩
  | .hbm, ⟨34, _⟩ => ⟨S2048x2x1x1, .i32⟩
  | .hbm, ⟨35, _⟩ => ⟨S2048x2x1x1, .i1⟩
  | .hbm, ⟨36, _⟩ => ⟨S2048x2x1x1, .i1⟩
  | .hbm, ⟨37, _⟩ => ⟨S_, .i1⟩
  | .hbm, ⟨38, _⟩ => ⟨S2048x2x1, .i1⟩
  | .hbm, ⟨39, _⟩ => ⟨S2048x2x1, .f32⟩
  | .hbm, ⟨40, _⟩ => ⟨S_, .f32⟩
  | .hbm, ⟨41, _⟩ => ⟨S2048x2x1, .f32⟩
  | .hbm, ⟨42, _⟩ => ⟨S2048x2x1, .f32⟩
  | .hbm, ⟨43, _⟩ => ⟨S2048x2, .f32⟩
  | .hbm, ⟨44, _⟩ => ⟨S_, .f32⟩
  | .hbm, ⟨45, _⟩ => ⟨S_, .f32⟩
  | .hbm, ⟨46, _⟩ => ⟨S2048x2, .f32⟩
  | .hbm, ⟨47, _⟩ => ⟨S2048x2, .f32⟩
  | .hbm, ⟨48, _⟩ => ⟨S2048x2x32000, .f32⟩
  | .hbm, ⟨49, _⟩ => ⟨S_, .f32⟩
  | .hbm, ⟨50, _⟩ => ⟨S2048x2, .f32⟩
  | .hbm, ⟨51, _⟩ => ⟨S2048x2, .f32⟩
  | .hbm, ⟨52, _⟩ => ⟨S2048x2, .f32⟩
  | _, _ => ⟨S2048x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_v11 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_cst : Ref sig .tc := ⟨.hbm, 40, rfl⟩
abbrev main_call1_v14 : Ref sig .tc := ⟨.hbm, 41, rfl⟩
abbrev main_v12 : Ref sig .tc := ⟨.hbm, 42, rfl⟩
abbrev main_v13 : Ref sig .tc := ⟨.hbm, 43, rfl⟩
abbrev main_cst_2 : Ref sig .tc := ⟨.hbm, 44, rfl⟩
abbrev main_call2_v0 : Ref sig .tc := ⟨.hbm, 45, rfl⟩
abbrev main_call2_v1 : Ref sig .tc := ⟨.hbm, 46, rfl⟩
abbrev main_v14 : Ref sig .tc := ⟨.hbm, 47, rfl⟩
abbrev main_v15 : Ref sig .tc := ⟨.hbm, 48, rfl⟩
abbrev main_cst_3 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩

abbrev nD : Nat := 1
abbrev τ : Topo := Topo.v7x

variable {F : FTy → Type} [FloatOps F]

class Facts₀ : Prop where
  reducesTo_S2048x2x32000_S2048x2_d2 : S2048x2x32000.ReducesTo [2] S2048x2
  h_S_ : 0 < S_.numel
  bcast_S2048x2_S2048x2x1_0_1 : S2048x2.BroadcastsInDim S2048x2x1 (![0, 1] : Fin 2 → Fin S2048x2x1.rank)
  bcast_S2048x2x1_S2048x2x32000_0_1_2 : S2048x2x1.BroadcastsInDim S2048x2x32000 (![0, 1, 2] : Fin 3 → Fin S2048x2x32000.rank)
  bcast_S_S2048x2 : S_.BroadcastsInDim S2048x2 (![] : Fin 0 → Fin S2048x2.rank)
  bcast_S_S2048x2x1 : S_.BroadcastsInDim S2048x2x1 (![] : Fin 0 → Fin S2048x2x1.rank)
  shapeCasts_S2048x2x1_S2048x2x1x1 : S2048x2x1.ShapeCasts S2048x2x1x1
  bcast_S_S2048x2x1x1 : S_.BroadcastsInDim S2048x2x1x1 (![] : Fin 0 → Fin S2048x2x1x1.rank)
  bcast_S1_S1x1x1x1_3 : S1.BroadcastsInDim S1x1x1x1 (![3] : Fin 1 → Fin S1x1x1x1.rank)
  bcast_S1x1x1x1_S2048x2x1x1_0_1_2_3 : S1x1x1x1.BroadcastsInDim S2048x2x1x1 (![0, 1, 2, 3] : Fin 4 → Fin S2048x2x1x1.rank)
  reducesTo_S2048x2x1x1_S2048x2x1_d3 : S2048x2x1x1.ReducesTo [3] S2048x2x1
  shapeCasts_S2048x2x1_S2048x2 : S2048x2x1.ShapeCasts S2048x2
  dot_S2048x2x1024_S32000x1024_S2048x2x32000_2_1_01_0_n_n_wf : DotDims.WF S2048x2x1024 S32000x1024 S2048x2x32000 [2] [1] [0, 1] [0] [] []
  gather_S2048x2x32000_S2048x2x1x1_S2048x2x1_n_2_01_01_2_3_111_wf : GatherDims.WF S2048x2x32000 S2048x2x1x1 S2048x2x1 [] [2] [0, 1] [2] [0, 1] 3 ![1, 1, 1]

variable [Facts₀]

def dot_S2048x2x1024_S32000x1024_S2048x2x32000_2_1_01_0_n_n : DotDims S2048x2x1024 S32000x1024 S2048x2x32000 where
  lhsContracting := [2]
  rhsContracting := [1]
  lhsNonContracting := [0, 1]
  rhsNonContracting := [0]
  lhsBatch := []
  rhsBatch := []
  wf := dot_S2048x2x1024_S32000x1024_S2048x2x32000_2_1_01_0_n_n_wf
def gather_S2048x2x32000_S2048x2x1x1_S2048x2x1_n_2_01_01_2_3_111 : GatherDims S2048x2x32000 S2048x2x1x1 S2048x2x1 where
  offsetDims := []
  collapsedSliceDims := [2]
  operandBatchingDims := [0, 1]
  startIndicesBatchingDims := [0, 1]
  startIndexMap := [2]
  indexVectorDim := 3
  sliceSizes := ![1, 1, 1]
  wf := gather_S2048x2x32000_S2048x2x1x1_S2048x2x1_n_2_01_01_2_3_111_wf

class Facts : Prop extends Facts₀ where

variable [Facts]
-- ==== Proof.Pieces.lean ====
/-
  What one run of the kernel body leaves in its three carried scratch vectors and, at a row block's last vocabulary tile,
  in the output block — as the body's own arithmetic of the blocks it loads:
    the running maximum      m' = nextMax x w m          (the old maximum against the tile's row maxima),
    the running sum          l' = nextSum x w m l        (the old sum rescaled to m', plus the tile's shifted exponentials),
    the running target logit p' = nextHit i x w t p      (the old value plus the logits the target hits in this tile),
  at a row block's first tile from the reset values (−∞, 0, 0) the body has just stored, elsewhere from what the point
  before left; and at the last tile the output is `closing t p' m' l'` of the values just stored.
-/
import proofs.«422961_j18030272709050_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

/-- The zero offset of a whole-block access, as a constant function. -/
private theorem hz : (![0, 0] : Fin 2 → Nat) = fun _ => 0 := funext fun a => by fin_cases a <;> rfl

/-- The running maximum after a tile. -/
abbrev nextMax (x0 : Vec F S1024x1024 .bf16) (x1 : Vec F S1280x1024 .f32) (mp : Vec F S1024x1 .f32) : Vec F S1024x1 .f32 :=
  k0_pay9 x0 x1 mp
/-- The running sum of exponentials after a tile. -/
abbrev nextSum (x0 : Vec F S1024x1024 .bf16) (x1 : Vec F S1280x1024 .f32) (mp lp : Vec F S1024x1 .f32) : Vec F S1024x1 .f32 :=
  k0_pay8 x0 x1 mp lp
/-- The running target logit after a tile. -/
abbrev nextHit (i : grid0.Coords) (x0 : Vec F S1024x1024 .bf16) (x1 : Vec F S1280x1024 .f32) (x2 : Vec F S1024x1 .i32) (pp : Vec F S1024x1 .f32) : Vec F S1024x1 .f32 :=
  k0_pay1 (k0_pay6 x0 x1) (iota .tc S1024x1280 32 [1] iota_S1024x1280_d1_w32) (k0_pay11 i x2) pp
/-- The output block written at a row block's last tile, from the running values just stored. -/
abbrev closing (x2 : Vec F S1024x1 .i32) (p m l : Vec F S1024x1 .f32) : Vec F S1024x1 .f32 :=
  k0_pay2 (k0_pay10 x2) p m l

/-! ## First tile of a row block: from the reset values -/

theorem sout_A_0 (c : Dev nD) (i : grid0.Coords) (arg2 : Memref sig .tc .vmem S1024x1024 .bf16) (harg2 : arg2.IsWhole) (arg3 : Memref sig .tc .vmem S1280x1024 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i) (x0 : Vec F S1024x1024 .bf16) (x1 : Vec F S1280x1024 .f32) (x2 : Vec F S1024x1 .i32) :
    sout0_A_0 c i arg2 harg2 arg3 harg3 arg4 harg4 arg5 harg5 arg6 harg6 arg7 harg7 arg8 harg8 hc0 hc1 x0 x1 x2 = nextMax x0 x1 (k0_pay3 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg6.read_unread, harg7.read_unread, harg8.read_unread, View.ld_unit_zero (S := S1024x1024) hz, View.ld_unit_zero (S := S1280x1024) hz, View.ld_unit_zero (S := S1024x1) hz, View.readCov_unit_zero (S := S1024x1) _ hz, shapeCast_self]

theorem sout_A_1 (c : Dev nD) (i : grid0.Coords) (arg2 : Memref sig .tc .vmem S1024x1024 .bf16) (harg2 : arg2.IsWhole) (arg3 : Memref sig .tc .vmem S1280x1024 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i) (x0 : Vec F S1024x1024 .bf16) (x1 : Vec F S1280x1024 .f32) (x2 : Vec F S1024x1 .i32) :
    sout0_A_1 c i arg2 harg2 arg3 harg3 arg4 harg4 arg5 harg5 arg6 harg6 arg7 harg7 arg8 harg8 hc0 hc1 x0 x1 x2 = nextSum x0 x1 (k0_pay3 (F := F)) (k0_pay4 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg6.read_unread, harg7.read_unread, harg8.read_unread, View.ld_unit_zero (S := S1024x1024) hz, View.ld_unit_zero (S := S1280x1024) hz, View.ld_unit_zero (S := S1024x1) hz, View.readCov_unit_zero (S := S1024x1) _ hz, shapeCast_self]

theorem sout_A_2 (c : Dev nD) (i : grid0.Coords) (arg2 : Memref sig .tc .vmem S1024x1024 .bf16) (harg2 : arg2.IsWhole) (arg3 : Memref sig .tc .vmem S1280x1024 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i) (x0 : Vec F S1024x1024 .bf16) (x1 : Vec F S1280x1024 .f32) (x2 : Vec F S1024x1 .i32) :
    sout0_A_2 c i arg2 harg2 arg3 harg3 arg4 harg4 arg5 harg5 arg6 harg6 arg7 harg7 arg8 harg8 hc0 hc1 x0 x1 x2 = nextHit i x0 x1 x2 (k0_pay5 (F := F)) := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg6.read_unread, harg7.read_unread, harg8.read_unread, View.ld_unit_zero (S := S1024x1024) hz, View.ld_unit_zero (S := S1280x1024) hz, View.ld_unit_zero (S := S1024x1) hz, View.readCov_unit_zero (S := S1024x1) _ hz, shapeCast_self]

/-! ## A middle tile: from what the point before left -/

theorem sout_B_0 (c : Dev nD) (i : grid0.Coords) (arg2 : Memref sig .tc .vmem S1024x1024 .bf16) (harg2 : arg2.IsWhole) (arg3 : Memref sig .tc .vmem S1280x1024 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i) (x0 : Vec F S1024x1024 .bf16) (x1 : Vec F S1280x1024 .f32) (x2 : Vec F S1024x1 .i32) (xs0 : Vec F S1024x1 .f32) (xs1 : Vec F S1024x1 .f32) (xs2 : Vec F S1024x1 .f32) :
    sout0_B_0 c i arg2 harg2 arg3 harg3 arg4 harg4 arg5 harg5 arg6 harg6 arg7 harg7 arg8 harg8 hc0 hc1 x0 x1 x2 xs0 xs1 xs2 = nextMax x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread, harg8.read_unread, View.ld_unit_zero (S := S1024x1024) hz, View.ld_unit_zero (S := S1280x1024) hz, View.ld_unit_zero (S := S1024x1) hz, View.readCov_unit_zero (S := S1024x1) _ hz, shapeCast_self]

theorem sout_B_1 (c : Dev nD) (i : grid0.Coords) (arg2 : Memref sig .tc .vmem S1024x1024 .bf16) (harg2 : arg2.IsWhole) (arg3 : Memref sig .tc .vmem S1280x1024 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i) (x0 : Vec F S1024x1024 .bf16) (x1 : Vec F S1280x1024 .f32) (x2 : Vec F S1024x1 .i32) (xs0 : Vec F S1024x1 .f32) (xs1 : Vec F S1024x1 .f32) (xs2 : Vec F S1024x1 .f32) :
    sout0_B_1 c i arg2 harg2 arg3 harg3 arg4 harg4 arg5 harg5 arg6 harg6 arg7 harg7 arg8 harg8 hc0 hc1 x0 x1 x2 xs0 xs1 xs2 = nextSum x0 x1 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread, harg8.read_unread, View.ld_unit_zero (S := S1024x1024) hz, View.ld_unit_zero (S := S1280x1024) hz, View.ld_unit_zero (S := S1024x1) hz, View.readCov_unit_zero (S := S1024x1) _ hz, shapeCast_self]

theorem sout_B_2 (c : Dev nD) (i : grid0.Coords) (arg2 : Memref sig .tc .vmem S1024x1024 .bf16) (harg2 : arg2.IsWhole) (arg3 : Memref sig .tc .vmem S1280x1024 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i) (x0 : Vec F S1024x1024 .bf16) (x1 : Vec F S1280x1024 .f32) (x2 : Vec F S1024x1 .i32) (xs0 : Vec F S1024x1 .f32) (xs1 : Vec F S1024x1 .f32) (xs2 : Vec F S1024x1 .f32) :
    sout0_B_2 c i arg2 harg2 arg3 harg3 arg4 harg4 arg5 harg5 arg6 harg6 arg7 harg7 arg8 harg8 hc0 hc1 x0 x1 x2 xs0 xs1 xs2 = nextHit i x0 x1 x2 xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread, harg8.read_unread, View.ld_unit_zero (S := S1024x1024) hz, View.ld_unit_zero (S := S1280x1024) hz, View.ld_unit_zero (S := S1024x1) hz, View.readCov_unit_zero (S := S1024x1) _ hz, shapeCast_self]

/-! ## The last tile: the same three, and the output block -/

theorem sout_C_0 (c : Dev nD) (i : grid0.Coords) (arg2 : Memref sig .tc .vmem S1024x1024 .bf16) (harg2 : arg2.IsWhole) (arg3 : Memref sig .tc .vmem S1280x1024 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i) (x0 : Vec F S1024x1024 .bf16) (x1 : Vec F S1280x1024 .f32) (x2 : Vec F S1024x1 .i32) (xs0 : Vec F S1024x1 .f32) (xs1 : Vec F S1024x1 .f32) (xs2 : Vec F S1024x1 .f32) :
    sout0_C_0 c i arg2 harg2 arg3 harg3 arg4 harg4 arg5 harg5 arg6 harg6 arg7 harg7 arg8 harg8 hc0 hc1 x0 x1 x2 xs0 xs1 xs2 = nextMax x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread, View.ld_unit_zero (S := S1024x1024) hz, View.ld_unit_zero (S := S1280x1024) hz, View.ld_unit_zero (S := S1024x1) hz, View.readCov_unit_zero (S := S1024x1) _ hz, shapeCast_self]

theorem sout_C_1 (c : Dev nD) (i : grid0.Coords) (arg2 : Memref sig .tc .vmem S1024x1024 .bf16) (harg2 : arg2.IsWhole) (arg3 : Memref sig .tc .vmem S1280x1024 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i) (x0 : Vec F S1024x1024 .bf16) (x1 : Vec F S1280x1024 .f32) (x2 : Vec F S1024x1 .i32) (xs0 : Vec F S1024x1 .f32) (xs1 : Vec F S1024x1 .f32) (xs2 : Vec F S1024x1 .f32) :
    sout0_C_1 c i arg2 harg2 arg3 harg3 arg4 harg4 arg5 harg5 arg6 harg6 arg7 harg7 arg8 harg8 hc0 hc1 x0 x1 x2 xs0 xs1 xs2 = nextSum x0 x1 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread, View.ld_unit_zero (S := S1024x1024) hz, View.ld_unit_zero (S := S1280x1024) hz, View.ld_unit_zero (S := S1024x1) hz, View.readCov_unit_zero (S := S1024x1) _ hz, shapeCast_self]

theorem sout_C_2 (c : Dev nD) (i : grid0.Coords) (arg2 : Memref sig .tc .vmem S1024x1024 .bf16) (harg2 : arg2.IsWhole) (arg3 : Memref sig .tc .vmem S1280x1024 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i) (x0 : Vec F S1024x1024 .bf16) (x1 : Vec F S1280x1024 .f32) (x2 : Vec F S1024x1 .i32) (xs0 : Vec F S1024x1 .f32) (xs1 : Vec F S1024x1 .f32) (xs2 : Vec F S1024x1 .f32) :
    sout0_C_2 c i arg2 harg2 arg3 harg3 arg4 harg4 arg5 harg5 arg6 harg6 arg7 harg7 arg8 harg8 hc0 hc1 x0 x1 x2 xs0 xs1 xs2 = nextHit i x0 x1 x2 xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread, View.ld_unit_zero (S := S1024x1024) hz, View.ld_unit_zero (S := S1280x1024) hz, View.ld_unit_zero (S := S1024x1) hz, View.readCov_unit_zero (S := S1024x1) _ hz, shapeCast_self]

theorem out_C_3 (c : Dev nD) (i : grid0.Coords) (arg2 : Memref sig .tc .vmem S1024x1024 .bf16) (harg2 : arg2.IsWhole) (arg3 : Memref sig .tc .vmem S1280x1024 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i) (x0 : Vec F S1024x1024 .bf16) (x1 : Vec F S1280x1024 .f32) (x2 : Vec F S1024x1 .i32) (xs0 : Vec F S1024x1 .f32) (xs1 : Vec F S1024x1 .f32) (xs2 : Vec F S1024x1 .f32) :
    out0_C_3 c i arg2 harg2 arg3 harg3 arg4 harg4 arg5 harg5 arg6 harg6 arg7 harg7 arg8 harg8 hc0 hc1 x0 x1 x2 xs0 xs1 xs2
      = closing x2 (nextHit i x0 x1 x2 xs2) (nextMax x0 x1 xs0) (nextSum x0 x1 xs0 xs1) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread, View.ld_unit_zero (S := S1024x1024) hz, View.ld_unit_zero (S := S1280x1024) hz, View.ld_unit_zero (S := S1024x1) hz, View.readCov_unit_zero (S := S1024x1) _ hz, shapeCast_self]

end Cert.KernelIdeal.Pieces

end
-- ==== Proof.Spec.lean ====
/-
  The cross-entropy of a row of logits, and the running form of it.

  For one row the reference computes, from the logits `L v` (v < 32000) and the target word `τ`,
      log (Σ_v exp (L v − max L)) − (L τ − max L)          when 0 ≤ τ < 32000,
      log (Σ_v exp (L v − max L)) − 0                       otherwise.
  The kernel walks the vocabulary in 25 tiles of 1280 lanes and keeps three running values per row:
      m' = max m (max of the tile),   l' = l · exp (m − m') + Σ_j exp (S j − m'),   p' = p + Σ_j [τ hits lane j] · S j,
  from m = −∞, l = 0, p = 0, and ends with log l − (p − m) (or log l − 0).
  When every logit is a real number the two agree: exp (a − b) · exp (b − c) = exp (a − c) rescales the old sum to the
  new maximum, the running maximum after the last tile is the row's maximum, and the hit-sum picks the one logit at τ.
-/
import Idealize.ShloMosaic.PureOps.Ideal
import Idealize.ShloMosaic.PureOps.Ideal.Laws
import Idealize.ShloMosaic.Lib.ValueIdx

noncomputable section

namespace Cert.CrossEntropy

open Idealize.ShloMosaic Idealize.ShloMosaic.ValueIdx

/-- The three argument shapes: activations [2048, 2, 1024], weights [32000, 1024], targets [2048, 2]. -/
abbrev SX : Shape := ⟨3, ![2048, 2, 1024]⟩
abbrev SW : Shape := ⟨2, ![32000, 1024]⟩
abbrev ST : Shape := ⟨2, ![2048, 2]⟩

/-- A row's largest logit, as the fold of `max` from −∞ over the vocabulary. -/
def rowMax (L : Fin 32000 → EReal) : EReal := (Finset.univ : Finset (Fin 32000)).fold max ⊥ L

/-- The loss of one row: the log of the shifted exponentials' sum, minus the shifted logit at the target when the target
    is a vocabulary index (its word read unsigned is below 32000), minus zero otherwise. -/
def rowLoss (L : Fin 32000 → EReal) (τ : BitVec 32) : EReal :=
  Ideal.log (0 + ∑ v : Fin 32000, Ideal.exp (L v - rowMax L))
    - (if h : τ.toNat < 32000 then L ⟨τ.toNat, h⟩ - rowMax L else 0)

/-- The logit of row (s, b) at vocabulary index v: the inner product of the activation row with the weight row. -/
def logit (x : SX.Idx → EReal) (w : SW.Idx → EReal) (s : Fin 2048) (b : Fin 2) (v : Fin 32000) : EReal :=
  ∑ h : Fin 1024, x (ix3 s b h) * w (ix2 v h)

/-- The whole result: the loss of every row. -/
def loss (x : SX.Idx → EReal) (w : SW.Idx → EReal) (t : ST.Idx → BitVec 32) : ST.Idx → EReal :=
  fun i => rowLoss (logit x w ⟨(i 0).val, (i 0).isLt⟩ ⟨(i 1).val, (i 1).isLt⟩) (t i)

/-! ## The running form, one row -/

/-- The largest entry of one tile of 1280 lanes, from −∞. -/
def tileMax (S : Fin 1280 → EReal) : EReal := (Finset.univ : Finset (Fin 1280)).fold max ⊥ S

/-- The running maximum after a tile. -/
def stepM (mp : EReal) (S : Fin 1280 → EReal) : EReal := max mp (tileMax S)

/-- The running sum of exponentials after a tile: the old sum rescaled to the new maximum, plus the tile's. -/
def stepL (mp lp : EReal) (S : Fin 1280 → EReal) : EReal :=
  lp * Ideal.exp (mp - stepM mp S) + ∑ j : Fin 1280, Ideal.exp (S j - stepM mp S)

/-- The running target logit after a tile: the lanes the target hits (at most one) added in. -/
def stepP (pp : EReal) (hit : Fin 1280 → Prop) [DecidablePred hit] (S : Fin 1280 → EReal) : EReal :=
  pp + ∑ j : Fin 1280, (if hit j then S j else 0)

/-- The three running values after tile `k`, started from (−∞, 0, 0) before tile 0. -/
def chainM (S : ℕ → Fin 1280 → EReal) : ℕ → EReal
  | 0 => stepM ⊥ (S 0)
  | k + 1 => stepM (chainM S k) (S (k + 1))

def chainL (S : ℕ → Fin 1280 → EReal) : ℕ → EReal
  | 0 => stepL ⊥ 0 (S 0)
  | k + 1 => stepL (chainM S k) (chainL S k) (S (k + 1))

def chainP (hit : ℕ → Fin 1280 → Prop) [∀ k, DecidablePred (hit k)] (S : ℕ → Fin 1280 → EReal) : ℕ → EReal
  | 0 => stepP 0 (hit 0) (S 0)
  | k + 1 => stepP (chainP hit S k) (hit (k + 1)) (S (k + 1))

/-- Vocabulary index of lane `j` of tile `k` (for k < 25 it is 1280 k + j). -/
def vocab (k : ℕ) (j : Fin 1280) : Fin 32000 := ⟨(1280 * k + j.val) % 32000, Nat.mod_lt _ (by norm_num)⟩

end Cert.CrossEntropy

end
-- ==== Proof.PayIdx.lean ====
/-
  The body's arithmetic read at one row, over the extended reals.
  For row r of a block (x : the activation block [1024, 1024], w : the weight tile [1280, 1024], t : the target block [1024, 1]):
    the tile's logits are   S j = Σ_h x (r, h) · w (j, h)              (the matrix product into a zero accumulator;
                                                                          the narrowing of w to bf16 is the identity here),
    the new maximum         max m (max_j S j)                           (the lane maximum from −∞),
    the new sum             l · exp (m − m') + Σ_j exp (S j − m')       (the lane sum from 0),
    the new target logit    p + Σ_j [t − 1280 k = j] · S j              (the lane index compared as 32-bit words),
    the closing value       log l − (if 0 ≤ t < 32000 then p − m else 0) (signed compares of the target word).
  The two word facts: for a tile k < 25 the lane test holds exactly when the target word, read unsigned, is 1280 k + j;
  the range test holds exactly when the target word read unsigned is below 32000.
-/
import proofs.«422961_j18030272709050_2_alg».proof.Proof.Spec
import proofs.«422961_j18030272709050_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.PayIdx

open Cert.KernelIdeal Cert.KernelIdeal.Gen Cert.CrossEntropy Idealize.ShloMosaic Idealize.ShloMosaic.ValueIdx

/-- The logits of row `r` against the weight tile: lane `j` is the inner product of activation row r with weight row j. -/
def tileLogit (x0 : Vec Ideal S1024x1024 .bf16) (x1 : Vec Ideal S1280x1024 .f32) (r : Fin 1024) (j : Fin 1280) : EReal :=
  ∑ h : Fin 1024, x0 (ix2 r h) * x1 (ix2 j h)

/-- The lane test of tile `k` as the body computes it on 32-bit words: target − 1280·k against the lane index. -/
def hitW (τ : BitVec 32) (k : ℕ) (j : Fin 1280) : Prop :=
  IntOp.cmpi .eq (IntOp.subi τ (Scalar.muli (BitVec.ofNat 32 k) 1280#32)) (BitVec.ofNat 32 j.val) = 1#1

instance (τ : BitVec 32) (k : ℕ) : DecidablePred (hitW τ k) := fun _ => by unfold hitW; infer_instance

/-- The range test as the body computes it: 0 ≤ target (signed) and target < 32000 (signed). -/
def validW (τ : BitVec 32) : Prop :=
  IntOp.andi (IntOp.cmpi .sge τ 0#32) (IntOp.cmpi .slt τ 32000#32) = 1#1

instance (τ : BitVec 32) : Decidable (validW τ) := by unfold validW; infer_instance

/-! ## Words -/

/-- A one-bit word made from a Boolean is 1 exactly when the Boolean is true. -/
private theorem ofBool_eq_one (c : Bool) : BitVec.ofBool c = 1#1 ↔ c = true := by cases c <;> decide

/-- The word 0xFF800000 read as an extended real is −∞. -/
private theorem ofBits_neg_inf : Ideal.ofBits .f32 0xFF800000#32 = ⊥ := by simp [Ideal.ofBits, Ideal.ieee]

/-! ## The matrix product at an index

The left operand [1024, 1024] and the right operand [1280, 1024] both contract their axis 1; the left's axis 0 is the
result's axis 0 and the right's axis 0 is the result's axis 1. -/

private theorem lhs_pay6_0 (i : S1024x1280.Idx) (q : dot_S1024x1024_S1280x1024_S1024x1280_1_1_0_0_n_n.contr.Idx) :
    (dot_S1024x1024_S1280x1024_S1024x1280_1_1_0_0_n_n.lhsIdx i q 0).val = (i 0).val := by
  unfold DotDims.lhsIdx
  rw [dif_neg (show ¬(0 : Fin S1024x1024.rank) ∈ dot_S1024x1024_S1280x1024_S1024x1280_1_1_0_0_n_n.lhsBatch by decide), dif_pos (show (0 : Fin S1024x1024.rank) ∈ dot_S1024x1024_S1280x1024_S1024x1280_1_1_0_0_n_n.lhsNonContracting by decide)]
  rfl
private theorem lhs_pay6_1 (i : S1024x1280.Idx) (q : dot_S1024x1024_S1280x1024_S1024x1280_1_1_0_0_n_n.contr.Idx) :
    (dot_S1024x1024_S1280x1024_S1024x1280_1_1_0_0_n_n.lhsIdx i q 1).val = (q ⟨0, by decide⟩).val :=
  dot_S1024x1024_S1280x1024_S1024x1280_1_1_0_0_n_n.lhsIdx_val_of_single rfl i q
private theorem rhs_pay6_0 (i : S1024x1280.Idx) (q : dot_S1024x1024_S1280x1024_S1024x1280_1_1_0_0_n_n.contr.Idx) :
    (dot_S1024x1024_S1280x1024_S1024x1280_1_1_0_0_n_n.rhsIdx i q 0).val = (i 1).val := by
  unfold DotDims.rhsIdx
  rw [dif_neg (show ¬(0 : Fin S1280x1024.rank) ∈ dot_S1024x1024_S1280x1024_S1024x1280_1_1_0_0_n_n.rhsBatch by decide), dif_pos (show (0 : Fin S1280x1024.rank) ∈ dot_S1024x1024_S1280x1024_S1024x1280_1_1_0_0_n_n.rhsNonContracting by decide)]
  rfl
private theorem rhs_pay6_1 (i : S1024x1280.Idx) (q : dot_S1024x1024_S1280x1024_S1024x1280_1_1_0_0_n_n.contr.Idx) :
    (dot_S1024x1024_S1280x1024_S1024x1280_1_1_0_0_n_n.rhsIdx i q 1).val = (q ⟨0, by decide⟩).val :=
  dot_S1024x1024_S1280x1024_S1024x1280_1_1_0_0_n_n.rhsIdx_val_of_single rfl i q

/-- The matrix product into the zero accumulator at (r, j): the inner product of activation row r with weight row j
    (the same-shape cast of x and the narrowing of w are identities on the extended reals). -/
private theorem pay6_apply (x0 : Vec Ideal S1024x1024 .bf16) (x1 : Vec Ideal S1280x1024 .f32) (r : Fin 1024) (j : Fin 1280) :
    k0_pay6 (F := Ideal) x0 x1 (ix2 r j) = tileLogit x0 x1 r j := by
  unfold k0_pay6 tileLogit
  rw [shapeCast_self]
  refine (Ideal.matmul_constant_zero_apply dot_S1024x1024_S1280x1024_S1024x1280_1_1_0_0_n_n none x0 (truncf .bf16 x1 bitsLt_bf16_f32) (ix2 r j)).trans ?_
  rw [← Equiv.sum_comp (ValueIdx.contrEquiv1 dot_S1024x1024_S1280x1024_S1024x1280_1_1_0_0_n_n 1024 rfl rfl).symm]
  refine Finset.sum_congr rfl fun k _ => ?_
  have hk := ValueIdx.contrEquiv1_symm_val dot_S1024x1024_S1280x1024_S1024x1280_1_1_0_0_n_n 1024 rfl rfl k
  have el : dot_S1024x1024_S1280x1024_S1024x1280_1_1_0_0_n_n.lhsIdx (ix2 r j) ((ValueIdx.contrEquiv1 dot_S1024x1024_S1280x1024_S1024x1280_1_1_0_0_n_n 1024 rfl rfl).symm k) = ix2 r k := funext fun a => Fin.ext (by
    match a with
    | ⟨0, _⟩ => exact lhs_pay6_0 _ _
    | ⟨1, _⟩ => exact (lhs_pay6_1 _ _).trans hk)
  have er : dot_S1024x1024_S1280x1024_S1024x1280_1_1_0_0_n_n.rhsIdx (ix2 r j) ((ValueIdx.contrEquiv1 dot_S1024x1024_S1280x1024_S1024x1280_1_1_0_0_n_n 1024 rfl rfl).symm k) = ix2 j k := funext fun a => Fin.ext (by
    match a with
    | ⟨0, _⟩ => exact rhs_pay6_0 _ _
    | ⟨1, _⟩ => exact (rhs_pay6_1 _ _).trans hk)
  rw [el, er]
  rfl

/-! ## The keepdims column forms, and the lane reductions at a row -/

/-- A column [1024] cast to [1024, 1] reads, at (r, u), the operand at r. -/
private theorem shapeCast_col_apply {α : Type} (v : S1024.Idx → α) (h : S1024.ShapeCasts S1024x1) (r : Fin 1024) (u : Fin 1) :
    shapeCast S1024x1 v h (ix2 r u) = v (ix1 r) :=
  shapeCast_apply v h _ _ (by
    have hu : u.val = 0 := by omega
    rw [Shape.rowMajor_val_one, Shape.rowMajor_val_two]
    show r.val = r.val * 1 + u.val
    rw [hu, Nat.mul_one, Nat.add_zero])

/-- A column [1024, 1] broadcast to [1024, 1280] reads, at (r, j), the operand at (r, 0). -/
private theorem broadcastTo_col_apply {α : Type} (v : S1024x1.Idx → α) (h : S1024x1.Broadcasts S1024x1280) (r : Fin 1024) (j : Fin 1280) :
    broadcastTo S1024x1280 v h (ix2 r j) = v (ix2 r (0 : Fin 1)) := by
  refine broadcastTo_apply v h (ix2 r j) (ix2 r (0 : Fin 1)) fun ax => ?_
  match ax with
  | ⟨0, _⟩ =>
    show r.val = if (1024 : ℕ) = 1 then 0 else r.val
    rw [if_neg (by decide)]
  | ⟨1, _⟩ =>
    show (0 : ℕ) = if (1 : ℕ) = 1 then 0 else j.val
    rw [if_pos rfl]

/-- The index over row r with lane j inserted is (r, j). -/
private theorem lift_row (r : Fin 1024) (j : Fin 1280) :
    (reduces_S1024x1280_S1024).lift (ix1 r) j = ix2 r j :=
  funext fun a => Fin.ext (by
    match a with
    | ⟨0, _⟩ => rfl
    | ⟨1, _⟩ => rfl)

/-- The lane maximum from −∞ at row r. -/
private theorem laneMax_apply (S : FVec Ideal S1024x1280 .f32) (r : Fin 1024) :
    multiReduction (F := Ideal) .maximumf [1] S1024 S 0xFF800000#32 reduces_S1024x1280_S1024 (.inl rfl) rfl (ix1 r)
      = tileMax (fun j => S (ix2 r j)) := by
  refine (Ideal.multiReduction_maximumf_single S 0xFF800000#32 reduces_S1024x1280_S1024 (.inl rfl) rfl (ix1 r)).trans ?_
  unfold tileMax
  show Finset.fold max (Ideal.ofBits .f32 0xFF800000#32) (fun j : Fin 1280 => S ((reduces_S1024x1280_S1024).lift (ix1 r) j)) Finset.univ = _
  rw [ofBits_neg_inf]
  exact congrArg (fun f => Finset.fold max ⊥ f Finset.univ) (funext fun j => congrArg S (lift_row r j))

/-- The lane sum from 0 at row r. -/
private theorem laneSum_apply (T : FVec Ideal S1024x1280 .f32) (r : Fin 1024) :
    multiReduction (F := Ideal) .add [1] S1024 T 0x00000000#32 reduces_S1024x1280_S1024 (.inl rfl) rfl (ix1 r)
      = ∑ j : Fin 1280, T (ix2 r j) := by
  refine (Ideal.multiReduction_add_single T 0x00000000#32 reduces_S1024x1280_S1024 (.inl rfl) rfl (ix1 r)).trans ?_
  exact Finset.sum_congr rfl fun j _ => congrArg T (lift_row r j)

/-! ## The stated facts -/

/-- For a tile below 25 the lane test holds exactly when the target word read unsigned is 1280 k + j. -/
theorem hitW_iff (τ : BitVec 32) (k : ℕ) (hk : k < 25) (j : Fin 1280) : hitW τ k j ↔ τ.toNat = 1280 * k + j.val := by
  unfold hitW IntOp.cmpi IntOp.subi Scalar.muli IntOp.muli
  simp only []
  have hj := j.isLt
  rw [ofBool_eq_one, beq_iff_eq]
  constructor
  · intro h
    bv_omega
  · intro h
    bv_omega

/-- The range test holds exactly when the target word read unsigned is below 32000. -/
theorem validW_iff (τ : BitVec 32) : validW τ ↔ τ.toNat < 32000 := by
  unfold validW IntOp.andi IntOp.cmpi
  simp only []
  have hs : (0#32).sle τ = decide ((0 : Int) ≤ τ.toInt) := by simp [BitVec.sle]
  have ht : τ.slt 32000#32 = decide (τ.toInt < 32000) := by simp [BitVec.slt]
  rw [hs, ht]
  have hi := BitVec.toInt_eq_toNat_cond τ
  have hlt := τ.isLt
  by_cases h1 : (0 : Int) ≤ τ.toInt <;> by_cases h2 : τ.toInt < 32000 <;> simp [h1, h2] <;> omega

/-- The reset values: −∞ for the maximum, 0 for the sum and for the target logit. -/
theorem pay3_apply (y : S1024x1.Idx) : k0_pay3 (F := Ideal) y = ⊥ := by
  unfold k0_pay3
  rw [shapeCast_self]
  exact ofBits_neg_inf
theorem pay4_apply (y : S1024x1.Idx) : k0_pay4 (F := Ideal) y = 0 := by
  unfold k0_pay4
  rw [shapeCast_self]
  exact Ideal.ofBits_zero_f32
theorem pay5_apply (y : S1024x1.Idx) : k0_pay5 (F := Ideal) y = 0 := by
  unfold k0_pay5
  rw [shapeCast_self]
  exact Ideal.ofBits_zero_f32

/-- The running maximum at row r before the closing same-shape cast: the old one against the tile's lane maximum. -/
private theorem pay7_apply (x0 : Vec Ideal S1024x1024 .bf16) (x1 : Vec Ideal S1280x1024 .f32) (mp : Vec Ideal S1024x1 .f32) (r : Fin 1024) :
    k0_pay7 (F := Ideal) x0 x1 mp (ix2 r (0 : Fin 1)) = stepM (mp (ix2 r (0 : Fin 1))) (tileLogit x0 x1 r) := by
  unfold k0_pay7 stepM
  refine (maximumf_apply _ _ _).trans ?_
  refine congrArg (max (mp (ix2 r (0 : Fin 1)))) ?_
  refine (shapeCast_col_apply _ _ r 0).trans ?_
  refine (laneMax_apply _ r).trans ?_
  exact congrArg tileMax (funext fun j => pay6_apply x0 x1 r j)

/-- The new running maximum at row r. -/
theorem pay9_apply (x0 : Vec Ideal S1024x1024 .bf16) (x1 : Vec Ideal S1280x1024 .f32) (mp : Vec Ideal S1024x1 .f32) (r : Fin 1024) :
    k0_pay9 (F := Ideal) x0 x1 mp (ix2 r (0 : Fin 1)) = stepM (mp (ix2 r (0 : Fin 1))) (tileLogit x0 x1 r) := by
  unfold k0_pay9
  rw [shapeCast_self]
  exact pay7_apply x0 x1 mp r

/-- The new running sum at row r. -/
theorem pay8_apply (x0 : Vec Ideal S1024x1024 .bf16) (x1 : Vec Ideal S1280x1024 .f32) (mp lp : Vec Ideal S1024x1 .f32) (r : Fin 1024) :
    k0_pay8 (F := Ideal) x0 x1 mp lp (ix2 r (0 : Fin 1))
      = stepL (mp (ix2 r (0 : Fin 1))) (lp (ix2 r (0 : Fin 1))) (tileLogit x0 x1 r) := by
  unfold k0_pay8 stepL
  rw [shapeCast_self]
  refine (addf_apply _ _ _).trans ?_
  refine congrArg₂ (· + ·) ?_ ?_
  · refine (mulf_apply _ _ _).trans ?_
    refine congrArg (lp (ix2 r (0 : Fin 1)) * ·) ?_
    show Ideal.exp (mp (ix2 r (0 : Fin 1)) - k0_pay7 (F := Ideal) x0 x1 mp (ix2 r (0 : Fin 1))) = _
    rw [pay7_apply]
  · refine (shapeCast_col_apply _ _ r 0).trans ?_
    refine (laneSum_apply _ r).trans ?_
    refine Finset.sum_congr rfl fun j _ => ?_
    show Ideal.exp (k0_pay6 (F := Ideal) x0 x1 (ix2 r j)
      - broadcastTo S1024x1280 (k0_pay7 (F := Ideal) x0 x1 mp) broadcasts_S1024x1_S1024x1280 (ix2 r j)) = _
    rw [broadcastTo_col_apply, pay7_apply, pay6_apply]

/-- The new running target logit at row r, at the grid point whose vocabulary-tile coordinate is `i 1`. -/
theorem pay1_apply (i : grid0.Coords) (x0 : Vec Ideal S1024x1024 .bf16) (x1 : Vec Ideal S1280x1024 .f32) (x2 : Vec Ideal S1024x1 .i32)
    (pp : Vec Ideal S1024x1 .f32) (r : Fin 1024) :
    k0_pay1 (F := Ideal) (k0_pay6 x0 x1) (iota .tc S1024x1280 32 [1] iota_S1024x1280_d1_w32) (k0_pay11 (F := Ideal) i x2) pp (ix2 r (0 : Fin 1))
      = stepP (pp (ix2 r (0 : Fin 1))) (hitW (x2 (ix2 r (0 : Fin 1))) (i 1).val) (tileLogit x0 x1 r) := by
  unfold k0_pay1 stepP
  rw [shapeCast_self]
  refine (addf_apply _ _ _).trans ?_
  refine congrArg (pp (ix2 r (0 : Fin 1)) + ·) ?_
  refine (shapeCast_col_apply _ _ r 0).trans ?_
  refine (laneSum_apply _ r).trans ?_
  refine Finset.sum_congr rfl fun j _ => ?_
  refine (select_apply _ _ _ _).trans ?_
  show Scalar.select (IntOp.cmpi .eq (k0_pay11 (F := Ideal) i x2 (ix2 r j))
        (iota .tc S1024x1280 32 [1] iota_S1024x1280_d1_w32 (ix2 r j)))
      (k0_pay6 (F := Ideal) x0 x1 (ix2 r j)) (Ideal.ofBits .f32 0x00000000#32) = _
  rw [pay6_apply, Ideal.ofBits_zero_f32, iota_single_apply]
  -- the target word less the tile's offset, the same in every lane of the row
  have e11 : k0_pay11 (F := Ideal) i x2 (ix2 r j)
      = IntOp.subi (x2 (ix2 r (0 : Fin 1))) (Scalar.muli (BitVec.ofNat 32 (i 1).val) 1280#32) := by
    unfold k0_pay11 k0_pay10
    rw [shapeCast_self]
    exact broadcastTo_col_apply _ _ r j
  rw [e11]
  unfold Scalar.select hitW
  rfl

/-- The closing value at row r. -/
theorem pay2_apply (x2 : Vec Ideal S1024x1 .i32) (p mv l : Vec Ideal S1024x1 .f32) (r : Fin 1024) :
    k0_pay2 (F := Ideal) (k0_pay10 (F := Ideal) x2) p mv l (ix2 r (0 : Fin 1))
      = Ideal.log (l (ix2 r (0 : Fin 1)))
        - (if validW (x2 (ix2 r (0 : Fin 1))) then p (ix2 r (0 : Fin 1)) - mv (ix2 r (0 : Fin 1)) else 0) := by
  unfold k0_pay2 k0_pay10
  rw [shapeCast_self]
  show Ideal.log (l (ix2 r (0 : Fin 1)))
      - Scalar.select (IntOp.andi (IntOp.cmpi .sge (x2 (ix2 r (0 : Fin 1))) 0#32) (IntOp.cmpi .slt (x2 (ix2 r (0 : Fin 1))) 32000#32))
          (p (ix2 r (0 : Fin 1)) - mv (ix2 r (0 : Fin 1))) (Ideal.ofBits .f32 0x00000000#32) = _
  rw [Ideal.ofBits_zero_f32]
  unfold Scalar.select validW
  rfl

end Cert.KernelIdeal.PayIdx

end
-- ==== Proof.Blocks.lean ====
/-
  Where the blocks sit in the arrays.
  Grid point t = 25 i + k works on row block i (rows 1024 i … 1024 i + 1023 of the 4096 flattened rows) and vocabulary tile k
  (weight rows 1280 k … 1280 k + 1279). Flattened row R is row (R / 2, R % 2) of the [2048, 2, ·] arguments: the host
  reshapes x to [4096, 1024] (and narrows it, the identity over the extended reals) and the targets to [4096, 1] before the
  kernel, and reshapes the [4096, 1] result to [2048, 2] after it.
-/
import proofs.«422961_j18030272709050_2_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The flattened row that row `r` of the block at grid point `t` is: 1024 · (t / 25) + r. -/
def rowOf (t : Fin cfg0.N) (r : Fin 1024) : Fin 4096 :=
  ⟨1024 * (t.val / 25) + r.val, by have h := t.isLt; have hN : cfg0.N = 100 := N_0; omega⟩

/-- The three input blocks at a grid point, at their literal types. -/
abbrev xblk (c : Dev nD) (t : Fin cfg0.N) : Vec Ideal S1024x1024 .bf16 := iblk m c 0 t
abbrev wblk (c : Dev nD) (t : Fin cfg0.N) : Vec Ideal S1280x1024 .f32 := iblk m c 1 t
abbrev tblk (c : Dev nD) (t : Fin cfg0.N) : Vec Ideal S1024x1 .i32 := iblk m c 2 t

/-- The block indices of the three input windows at grid point t: (t / 25, 0), (t mod 25, 0), (t / 25, 0). -/
private theorem index_x : ∀ t : Fin cfg0.N, win0_0.index t (0 : Fin 2) = t.val / 25 ∧ win0_0.index t (1 : Fin 2) = 0 :=
  (by decide +kernel : ∀ t : Fin grid0.N, win0_0.index t (0 : Fin 2) = t.val / 25 ∧ win0_0.index t (1 : Fin 2) = 0)
private theorem index_w : ∀ t : Fin cfg0.N, win0_1.index t (0 : Fin 2) = t.val % 25 ∧ win0_1.index t (1 : Fin 2) = 0 :=
  (by decide +kernel : ∀ t : Fin grid0.N, win0_1.index t (0 : Fin 2) = t.val % 25 ∧ win0_1.index t (1 : Fin 2) = 0)
private theorem index_t : ∀ t : Fin cfg0.N, win0_2.index t (0 : Fin 2) = t.val / 25 ∧ win0_2.index t (1 : Fin 2) = 0 :=
  (by decide +kernel : ∀ t : Fin grid0.N, win0_2.index t (0 : Fin 2) = t.val / 25 ∧ win0_2.index t (1 : Fin 2) = 0)

/-- The [4096, 1024] activations the kernel is launched on: the argument flattened row-major, then narrowed. -/
private theorem V_x (c : Dev nD) : (V m c main_v1 : Vec Ideal S4096x1024 .bf16)
    = (truncf .bf16 (shapeCast S4096x1024 (m ((c : Thread nD τ).loc main_arg0) : FVec Ideal S2048x2x1024 .f32) Facts₀.shapeCasts_S2048x2x1024_S4096x1024 : FVec Ideal S4096x1024 .f32) Facts₀.bitsLt_bf16_f32 : FVec Ideal S4096x1024 .bf16) := by
  show StableHlo.after hostOps0 (fun b => m (c, b)) (Proc.devRef .tc main_v1) = _
  after_results
  rfl

/-- The [4096, 1] targets the kernel is launched on: the argument flattened row-major. -/
private theorem V_t (c : Dev nD) : (V m c main_v2 : Vec Ideal S4096x1 .i32)
    = (shapeCast S4096x1 (m ((c : Thread nD τ).loc main_arg2) : Vec Ideal S2048x2 .i32) Facts₀.shapeCasts_S2048x2_S4096x1 : Vec Ideal S4096x1 .i32) := by
  show StableHlo.after hostOps0 (fun b => m (c, b)) (Proc.devRef .tc main_v2) = _
  after_results
  rfl

/-- Flattening [2048, 2, 1024] to [4096, 1024] row-major: entry (R, h) is entry (R / 2, R mod 2, h),
    since ((R / 2) · 2 + R mod 2) · 1024 + h = R · 1024 + h. -/
private theorem flatten3_apply {α : Type} (x : S2048x2x1024.Idx → α) (hc : S2048x2x1024.ShapeCasts S4096x1024) (R : Fin 4096) (h : Fin 1024) :
    shapeCast S4096x1024 x hc (ix2 R h)
      = x (ix3 (⟨R.val / 2, by have := R.isLt; omega⟩ : Fin 2048) (⟨R.val % 2, Nat.mod_lt _ (by norm_num)⟩ : Fin 2) h) := by
  refine shapeCast_apply x hc _ _ ?_
  rw [Shape.rowMajor_val_two, Shape.rowMajor_val_three]
  show ((R.val / 2) * 2 + R.val % 2) * 1024 + h.val = R.val * 1024 + h.val
  omega

/-- Flattening [2048, 2] to [4096, 1] row-major: entry (R, 0) is entry (R / 2, R mod 2). -/
private theorem flatten2_apply {α : Type} (x : S2048x2.Idx → α) (hc : S2048x2.ShapeCasts S4096x1) (R : Fin 4096) :
    shapeCast S4096x1 x hc (ix2 R (0 : Fin 1))
      = x (ix2 (⟨R.val / 2, by have := R.isLt; omega⟩ : Fin 2048) (⟨R.val % 2, Nat.mod_lt _ (by norm_num)⟩ : Fin 2)) := by
  refine shapeCast_apply x hc _ _ ?_
  rw [Shape.rowMajor_val_two, Shape.rowMajor_val_two]
  show (R.val / 2) * 2 + R.val % 2 = R.val * 1 + 0
  omega

/-- Row r, column h of the activation block at t is row 1024 (t / 25) + r, column h of the launched activations. -/
private theorem xblk_read (c : Dev nD) (t : Fin cfg0.N) (r : Fin 1024) (h : Fin 1024) :
    xblk m c t (ix2 r h) = (V m c main_v1 : Vec Ideal S4096x1024 .bf16) (ix2 (rowOf t r) h) := by
  unfold xblk iblk
  rw [View.read_apply]
  show V m c main_v1 (((cfg0.win 0).blk t).view.emb (ix2 r h)) = V m c main_v1 (ix2 (rowOf t r) h)
  refine congrArg _ (funext fun a => Fin.ext ?_)
  match a with
  | ⟨0, _⟩ => show win0_0.index t 0 * 1024 + 1 * r.val = 1024 * (t.val / 25) + r.val; rw [(index_x t).1]; omega
  | ⟨1, _⟩ => show win0_0.index t 1 * 1024 + 1 * h.val = h.val; rw [(index_x t).2]; omega

/-- Row r of the target block at t is row 1024 (t / 25) + r of the launched targets. -/
private theorem tblk_read (c : Dev nD) (t : Fin cfg0.N) (r : Fin 1024) :
    tblk m c t (ix2 r (0 : Fin 1)) = (V m c main_v2 : Vec Ideal S4096x1 .i32) (ix2 (rowOf t r) (0 : Fin 1)) := by
  unfold tblk iblk
  rw [View.read_apply]
  show V m c main_v2 (((cfg0.win 2).blk t).view.emb (ix2 r (0 : Fin 1))) = V m c main_v2 (ix2 (rowOf t r) (0 : Fin 1))
  refine congrArg _ (funext fun a => Fin.ext ?_)
  match a with
  | ⟨0, _⟩ => show win0_2.index t 0 * 1024 + 1 * r.val = 1024 * (t.val / 25) + r.val; rw [(index_t t).1]; omega
  | ⟨1, _⟩ => show win0_2.index t 1 * 1 + 1 * 0 = 0; rw [(index_t t).2]

/-- The vocabulary-tile coordinate of grid point t is t mod 25. -/
theorem coord1 (t : Fin cfg0.N) : ((grid0.coords t) 1).val = t.val % 25 :=
  (by decide +kernel : ∀ t : Fin grid0.N, ((grid0.coords t) 1).val = t.val % 25) t

/-- The activation block: row r, column h is the argument at (R / 2, R % 2, h), R the flattened row. -/
theorem xblk_apply (c : Dev nD) (t : Fin cfg0.N) (r : Fin 1024) (h : Fin 1024) :
    xblk m c t (ix2 r h)
      = m ((c.tc : Thread nD τ).loc main_arg0)
          (ix3 (⟨(rowOf t r).val / 2, by have := (rowOf t r).isLt; omega⟩ : Fin 2048) (⟨(rowOf t r).val % 2, Nat.mod_lt _ (by norm_num)⟩ : Fin 2) h) := by
  rw [xblk_read, V_x]
  exact flatten3_apply _ _ (rowOf t r) h

/-- The weight tile: row j, column h is the weight argument at (1280 (t mod 25) + j, h). -/
theorem wblk_apply (c : Dev nD) (t : Fin cfg0.N) (j : Fin 1280) (h : Fin 1024) :
    wblk m c t (ix2 j h)
      = m ((c.tc : Thread nD τ).loc main_arg1) (ix2 (⟨1280 * (t.val % 25) + j.val, by have := Nat.mod_lt t.val (show 0 < 25 by norm_num); have := j.isLt; omega⟩ : Fin 32000) h) := by
  unfold wblk iblk
  rw [View.read_apply]
  show V m c main_arg1 (((cfg0.win 1).blk t).view.emb (ix2 j h)) = _
  rw [V_main_arg1]
  refine congrArg _ (funext fun a => Fin.ext ?_)
  match a with
  | ⟨0, _⟩ => show win0_1.index t 0 * 1280 + 1 * j.val = 1280 * (t.val % 25) + j.val; rw [(index_w t).1]; omega
  | ⟨1, _⟩ => show win0_1.index t 1 * 1024 + 1 * h.val = h.val; rw [(index_w t).2]; omega

/-- The target block: row r is the target argument at (R / 2, R % 2). -/
theorem tblk_apply (c : Dev nD) (t : Fin cfg0.N) (r : Fin 1024) :
    tblk m c t (ix2 r (0 : Fin 1))
      = m ((c.tc : Thread nD τ).loc main_arg2)
          (ix2 (⟨(rowOf t r).val / 2, by have := (rowOf t r).isLt; omega⟩ : Fin 2048) (⟨(rowOf t r).val % 2, Nat.mod_lt _ (by norm_num)⟩ : Fin 2)) := by
  rw [tblk_read, V_t]
  exact flatten2_apply _ _ (rowOf t r)

end Cert.KernelIdeal.Blocks

end
-- ==== Proof.RowLaw.lean ====
/-
  The row law: the running form of the cross-entropy (Spec.lean) equals the row's loss when every logit is real.
-/
import proofs.«422961_j18030272709050_2_alg».proof.Proof.Spec

noncomputable section

namespace Cert.CrossEntropy

open Idealize.ShloMosaic

/-! ## Coercions of sums and maxima -/

/-- The sum of coerced reals is the coercion of their sum. -/
private theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The fold of `max` from −∞ over a nonempty finite family of real numbers is the largest of them. -/
private theorem fold_max_coe {ι : Type*} [Fintype ι] [Nonempty ι] (f : ι → ℝ) :
    (Finset.univ : Finset ι).fold max ⊥ (fun i => ((f i : ℝ) : EReal))
      = ((Finset.univ.sup' Finset.univ_nonempty f : ℝ) : EReal) := by
  apply le_antisymm
  · rw [Finset.fold_max_le]
    exact ⟨bot_le, fun x hx => EReal.coe_le_coe_iff.2 (Finset.le_sup' f hx)⟩
  · obtain ⟨i, hi, h⟩ := Finset.exists_mem_eq_sup' Finset.univ_nonempty f
    rw [Finset.le_fold_max]
    exact Or.inr ⟨i, hi, le_of_eq (congrArg _ h)⟩

/-! ## One step on real values -/

private theorem stepM_bot (f : Fin 1280 → ℝ) :
    stepM ⊥ (fun j => ((f j : ℝ) : EReal))
      = ((Finset.univ.sup' Finset.univ_nonempty f : ℝ) : EReal) := by
  unfold stepM tileMax
  rw [fold_max_coe, max_eq_right bot_le]

private theorem stepM_coe (a : ℝ) (f : Fin 1280 → ℝ) :
    stepM (a : EReal) (fun j => ((f j : ℝ) : EReal))
      = ((max a (Finset.univ.sup' Finset.univ_nonempty f) : ℝ) : EReal) := by
  unfold stepM tileMax
  rw [fold_max_coe]
  exact (EReal.coe_strictMono.monotone.map_max).symm

private theorem stepL_bot (f : Fin 1280 → ℝ) :
    stepL ⊥ 0 (fun j => ((f j : ℝ) : EReal))
      = ((∑ j, Real.exp (f j - Finset.univ.sup' Finset.univ_nonempty f) : ℝ) : EReal) := by
  unfold stepL
  rw [stepM_bot, zero_mul, zero_add]
  simp only [← EReal.coe_sub, Ideal.exp_coe, coe_sum]

private theorem stepL_coe (a l : ℝ) (f : Fin 1280 → ℝ) :
    stepL (a : EReal) (l : EReal) (fun j => ((f j : ℝ) : EReal))
      = ((l * Real.exp (a - max a (Finset.univ.sup' Finset.univ_nonempty f))
          + ∑ j, Real.exp (f j - max a (Finset.univ.sup' Finset.univ_nonempty f)) : ℝ) : EReal) := by
  unfold stepL
  rw [stepM_coe]
  simp only [← EReal.coe_sub, Ideal.exp_coe, coe_sum, ← EReal.coe_mul, ← EReal.coe_add]

/-! ## The running values of real tiles -/

/-- The running maximum of real tiles. -/
private def runM (T : ℕ → Fin 1280 → ℝ) : ℕ → ℝ
  | 0 => Finset.univ.sup' Finset.univ_nonempty (T 0)
  | k + 1 => max (runM T k) (Finset.univ.sup' Finset.univ_nonempty (T (k + 1)))

/-- The running sum of exponentials of real tiles, each step rescaled to the new maximum. -/
private def runL (T : ℕ → Fin 1280 → ℝ) : ℕ → ℝ
  | 0 => ∑ j, Real.exp (T 0 j - runM T 0)
  | k + 1 => runL T k * Real.exp (runM T k - runM T (k + 1)) + ∑ j, Real.exp (T (k + 1) j - runM T (k + 1))

/-- On real tiles the running maximum and the running sum are real: they are the coercions of `runM` and `runL`. -/
private theorem chain_coe (S : ℕ → Fin 1280 → EReal) (T : ℕ → Fin 1280 → ℝ) (n : ℕ)
    (h : ∀ k, k ≤ n → ∀ j, S k j = ((T k j : ℝ) : EReal)) :
    chainM S n = ((runM T n : ℝ) : EReal) ∧ chainL S n = ((runL T n : ℝ) : EReal) := by
  induction n with
  | zero =>
    have h0 : S 0 = fun j => ((T 0 j : ℝ) : EReal) := funext (h 0 le_rfl)
    constructor
    · show stepM ⊥ (S 0) = _
      rw [h0, stepM_bot]; rfl
    · show stepL ⊥ 0 (S 0) = _
      rw [h0, stepL_bot]; rfl
  | succ n ih =>
    obtain ⟨ihM, ihL⟩ := ih (fun k hk => h k (Nat.le_succ_of_le hk))
    have hn : S (n + 1) = fun j => ((T (n + 1) j : ℝ) : EReal) := funext (h (n + 1) le_rfl)
    constructor
    · show stepM (chainM S n) (S (n + 1)) = _
      rw [ihM, hn, stepM_coe]; rfl
    · show stepL (chainM S n) (chainL S n) (S (n + 1)) = _
      rw [ihM, ihL, hn, stepL_coe]; rfl

/-- exp (a − b) · exp (b − c) = exp (a − c): the running sum is the sum of all exponentials so far, shifted by the
    running maximum. -/
private theorem runL_eq (T : ℕ → Fin 1280 → ℝ) (n : ℕ) :
    runL T n = ∑ k ∈ Finset.range (n + 1), ∑ j, Real.exp (T k j - runM T n) := by
  induction n with
  | zero => rw [Finset.sum_range_one]; rfl
  | succ n ih =>
    rw [Finset.sum_range_succ]
    show runL T n * Real.exp (runM T n - runM T (n + 1)) + _ = _
    rw [ih, Finset.sum_mul]
    congr 1
    refine Finset.sum_congr rfl fun k _ => ?_
    rw [Finset.sum_mul]
    refine Finset.sum_congr rfl fun j _ => ?_
    rw [← Real.exp_add, sub_add_sub_cancel]

/-- The running maximum bounds every entry of the tiles so far. -/
private theorem runM_ub (T : ℕ → Fin 1280 → ℝ) (n : ℕ) : ∀ k, k ≤ n → ∀ j, T k j ≤ runM T n := by
  induction n with
  | zero =>
    intro k hk j
    obtain rfl : k = 0 := Nat.le_zero.1 hk
    exact Finset.le_sup' (T 0) (Finset.mem_univ j)
  | succ n ih =>
    intro k hk j
    show T k j ≤ max (runM T n) _
    rcases Nat.lt_or_ge k (n + 1) with hlt | hge
    · exact le_max_of_le_left (ih k (Nat.lt_succ_iff.1 hlt) j)
    · obtain rfl : k = n + 1 := le_antisymm hk hge
      exact le_max_of_le_right (Finset.le_sup' (T (n + 1)) (Finset.mem_univ j))

/-- The running maximum is one of the entries of the tiles so far. -/
private theorem runM_attained (T : ℕ → Fin 1280 → ℝ) (n : ℕ) : ∃ k, k ≤ n ∧ ∃ j, runM T n = T k j := by
  induction n with
  | zero =>
    obtain ⟨j, _, hj⟩ := Finset.exists_mem_eq_sup' Finset.univ_nonempty (T 0)
    exact ⟨0, le_rfl, j, hj⟩
  | succ n ih =>
    obtain ⟨k, hk, j, hj⟩ := ih
    obtain ⟨j', _, hj'⟩ := Finset.exists_mem_eq_sup' Finset.univ_nonempty (T (n + 1))
    rcases max_choice (runM T n) (Finset.univ.sup' Finset.univ_nonempty (T (n + 1))) with h | h
    · exact ⟨k, Nat.le_succ_of_le hk, j, (show runM T (n + 1) = _ from h).trans hj⟩
    · exact ⟨n + 1, le_rfl, j', (show runM T (n + 1) = _ from h).trans hj'⟩

/-! ## The tiles enumerate the vocabulary -/

/-- (k, j) ↦ 1280 k + j is a bijection from 25 tiles of 1280 lanes onto the 32000 vocabulary indices. -/
private def tileEquiv : Fin 25 × Fin 1280 ≃ Fin 32000 where
  toFun p := ⟨1280 * p.1.val + p.2.val, by have := p.1.isLt; have := p.2.isLt; omega⟩
  invFun v := (⟨v.val / 1280, by have := v.isLt; omega⟩, ⟨v.val % 1280, Nat.mod_lt _ (by norm_num)⟩)
  left_inv p := by
    have h1 := p.1.isLt
    have h2 := p.2.isLt
    refine Prod.ext (Fin.ext ?_) (Fin.ext ?_)
    · show (1280 * p.1.val + p.2.val) / 1280 = p.1.val
      omega
    · show (1280 * p.1.val + p.2.val) % 1280 = p.2.val
      omega
  right_inv v := by
    refine Fin.ext ?_
    show 1280 * (v.val / 1280) + v.val % 1280 = v.val
    omega

private theorem vocab_val (k : ℕ) (hk : k < 25) (j : Fin 1280) : (vocab k j).val = 1280 * k + j.val := by
  have := j.isLt
  show (1280 * k + j.val) % 32000 = _
  exact Nat.mod_eq_of_lt (by omega)

private theorem vocab_eq (p : Fin 25 × Fin 1280) : vocab p.1.val p.2 = tileEquiv p :=
  Fin.ext (vocab_val p.1.val p.1.isLt p.2)

/-- A sum over the 25 tiles in order is the sum over the vocabulary. -/
private theorem sum_tiles {M : Type*} [AddCommMonoid M] (g : Fin 32000 → M) :
    ∑ k ∈ Finset.range 25, ∑ j : Fin 1280, g (vocab k j) = ∑ v, g v :=
  calc ∑ k ∈ Finset.range 25, ∑ j : Fin 1280, g (vocab k j)
      = ∑ k : Fin 25, ∑ j : Fin 1280, g (vocab k.val j) :=
        Finset.sum_range (fun k => ∑ j : Fin 1280, g (vocab k j))
    _ = ∑ p : Fin 25 × Fin 1280, g (vocab p.1.val p.2) :=
        (Fintype.sum_prod_type' (fun (k : Fin 25) (j : Fin 1280) => g (vocab k.val j))).symm
    _ = ∑ v, g v := Fintype.sum_equiv tileEquiv _ _ (fun p => by rw [vocab_eq])

/-- After the last tile the running maximum is the largest logit of the row. -/
private theorem runM_vocab (σ : Fin 32000 → ℝ) :
    runM (fun k j => σ (vocab k j)) 24 = Finset.univ.sup' Finset.univ_nonempty σ := by
  apply le_antisymm
  · obtain ⟨k, _, j, h⟩ := runM_attained (fun k j => σ (vocab k j)) 24
    rw [h]
    exact Finset.le_sup' σ (Finset.mem_univ _)
  · obtain ⟨v, _, hv⟩ := Finset.exists_mem_eq_sup' Finset.univ_nonempty σ
    rw [hv]
    have e : vocab (tileEquiv.symm v).1.val (tileEquiv.symm v).2 = v := by
      rw [vocab_eq, Equiv.apply_symm_apply]
    have hk : (tileEquiv.symm v).1.val ≤ 24 := by
      have := (tileEquiv.symm v).1.isLt
      omega
    calc σ v = σ (vocab (tileEquiv.symm v).1.val (tileEquiv.symm v).2) := by rw [e]
      _ ≤ _ := runM_ub (fun k j => σ (vocab k j)) 24 _ hk _

/-! ## The target's logit -/

/-- The running target logit is the sum of every hit lane's entry. -/
private theorem chainP_eq (hit : ℕ → Fin 1280 → Prop) [∀ k, DecidablePred (hit k)] (S : ℕ → Fin 1280 → EReal)
    (n : ℕ) :
    chainP hit S n = 0 + ∑ k ∈ Finset.range (n + 1), ∑ j : Fin 1280, (if hit k j then S k j else 0) := by
  induction n with
  | zero => rw [Finset.sum_range_one]; rfl
  | succ n ih =>
    rw [Finset.sum_range_succ, ← add_assoc, ← ih]; rfl

/-- A sum over the vocabulary that keeps only the index equal to `t` is the entry at `t`, or zero when `t` is no index. -/
private theorem sum_pick (σ : Fin 32000 → ℝ) (t : ℕ) :
    ∑ v : Fin 32000, (if t = v.val then ((σ v : ℝ) : EReal) else 0)
      = if h : t < 32000 then ((σ ⟨t, h⟩ : ℝ) : EReal) else 0 := by
  split_ifs with h
  · rw [Finset.sum_eq_single (⟨t, h⟩ : Fin 32000)]
    · exact if_pos rfl
    · intro v _ hv
      refine if_neg fun ht => hv (Fin.ext ht.symm)
    · intro hn
      exact absurd (Finset.mem_univ _) hn
  · refine Finset.sum_eq_zero fun v _ => if_neg fun ht => h (lt_of_eq_of_lt ht v.isLt)

/-- THE ROW LAW. If every logit of the row is a real number, the tiles are the row's logits in order, a lane is hit
    exactly when the target word is its vocabulary index, and `valid` says the target is a vocabulary index, then the
    kernel's closing expression over the running values after the 25th tile is the row's loss. -/
theorem online_eq (σ : Fin 32000 → ℝ) (τ : BitVec 32) (S : ℕ → Fin 1280 → EReal)
    (hS : ∀ k, k < 25 → ∀ j, S k j = ((σ (vocab k j) : ℝ) : EReal))
    (hit : ℕ → Fin 1280 → Prop) [∀ k, DecidablePred (hit k)]
    (hhit : ∀ k, k < 25 → ∀ j : Fin 1280, hit k j ↔ τ.toNat = 1280 * k + j.val)
    (valid : Prop) [Decidable valid] (hvalid : valid ↔ τ.toNat < 32000) :
    Ideal.log (chainL S 24) - (if valid then chainP hit S 24 - chainM S 24 else 0)
      = rowLoss (fun v => ((σ v : ℝ) : EReal)) τ := by
  obtain ⟨hM, hL⟩ := chain_coe S (fun k j => σ (vocab k j)) 24 (fun k hk j => hS k (by omega) j)
  have hmax : rowMax (fun v => ((σ v : ℝ) : EReal))
      = ((Finset.univ.sup' Finset.univ_nonempty σ : ℝ) : EReal) := fold_max_coe σ
  have hμ : runM (fun k j => σ (vocab k j)) 24 = Finset.univ.sup' Finset.univ_nonempty σ := runM_vocab σ
  have hlam : runL (fun k j => σ (vocab k j)) 24
      = ∑ v, Real.exp (σ v - Finset.univ.sup' Finset.univ_nonempty σ) := by
    rw [runL_eq, hμ]
    exact sum_tiles (fun v => Real.exp (σ v - Finset.univ.sup' Finset.univ_nonempty σ))
  have hP : chainP hit S 24 = if h : τ.toNat < 32000 then ((σ ⟨τ.toNat, h⟩ : ℝ) : EReal) else 0 := by
    rw [chainP_eq, zero_add, ← sum_pick σ τ.toNat,
      ← sum_tiles (fun v => if τ.toNat = v.val then ((σ v : ℝ) : EReal) else 0)]
    refine Finset.sum_congr rfl fun k hk => Finset.sum_congr rfl fun j _ => ?_
    have hk' : k < 25 := Finset.mem_range.1 hk
    rw [hS k hk' j, vocab_val k hk' j]
    exact if_congr (hhit k hk' j) rfl rfl
  unfold rowLoss
  rw [hL, hM, hlam, hμ, hmax, hP]
  generalize Finset.univ.sup' Finset.univ_nonempty σ = m
  have hsum : (0 : EReal) + ∑ v : Fin 32000, Ideal.exp (((σ v : ℝ) : EReal) - ((m : ℝ) : EReal))
      = ((∑ v, Real.exp (σ v - m) : ℝ) : EReal) := by
    rw [zero_add]
    simp only [← EReal.coe_sub, Ideal.exp_coe, coe_sum]
  rw [hsum]
  by_cases h : τ.toNat < 32000
  · rw [if_pos (hvalid.2 h), dif_pos h, dif_pos h]
  · rw [if_neg (mt hvalid.1 h), dif_neg h]

end Cert.CrossEntropy

end
-- ==== Proof.Running.lean ====
/-
  The running values, grid point by grid point, one row at a time.
  After the body at grid point t = 25 i + k the three carried vectors hold, at row r of row block i, the running maximum,
  the running sum of exponentials and the running target logit of flattened row R = 1024 i + r over the vocabulary tiles
  0 … k: at k = 0 the body starts from the reset values (−∞, 0, 0), at k > 0 from what point t − 1 left (the same row block).
  So they are the chains of Spec.lean over the row's logits S k j = logit R (1280 k + j), and at k = 24 the output block holds
  log l − (p − m) (or log l − 0), which the row law turns into the row's loss once the logits are known to be real:
  each is a finite sum of products of real entries.
-/
import proofs.«422961_j18030272709050_2_alg».proof.Proof.Pieces
import proofs.«422961_j18030272709050_2_alg».proof.Proof.PayIdx
import proofs.«422961_j18030272709050_2_alg».proof.Proof.Blocks
import proofs.«422961_j18030272709050_2_alg».proof.Proof.RowLaw

set_option maxRecDepth 16384

noncomputable section

namespace Cert.KernelIdeal.Running

open Cert.KernelIdeal Cert.KernelIdeal.Gen Cert.KernelIdeal.Pieces Cert.KernelIdeal.PayIdx Cert.KernelIdeal.Blocks Cert.CrossEntropy
open Idealize.ShloMosaic Idealize.ShloMosaic.TcCoe Idealize.SL.Sem Idealize.ShloMosaic.ValueIdx

variable (m : (ℓ : Loc nD τ sig) → Buf (Elt Ideal) ℓ)

/-! ## The carried vectors read at a row -/

/-- Row r of the running maximum / sum / target logit after point n, and of the output block. -/
def mAt (c : Dev nD) (n : ℕ) (h : n < cfg0.N) (r : Fin 1024) : EReal :=
  ((outsAt0 m c n h).2.1 : Vec Ideal S1024x1 .f32) (ix2 r (0 : Fin 1))
def lAt (c : Dev nD) (n : ℕ) (h : n < cfg0.N) (r : Fin 1024) : EReal :=
  ((outsAt0 m c n h).2.2.1 : Vec Ideal S1024x1 .f32) (ix2 r (0 : Fin 1))
def pAt (c : Dev nD) (n : ℕ) (h : n < cfg0.N) (r : Fin 1024) : EReal :=
  ((outsAt0 m c n h).2.2.2 : Vec Ideal S1024x1 .f32) (ix2 r (0 : Fin 1))
def oAt (c : Dev nD) (n : ℕ) (h : n < cfg0.N) (r : Fin 1024) : EReal :=
  ((outsAt0 m c n h).1 : Vec Ideal S1024x1 .f32) (ix2 r (0 : Fin 1))

/-- The tile's logits of row r at point t, and the row's target word there. -/
def tl (c : Dev nD) (t : Fin cfg0.N) (r : Fin 1024) : Fin 1280 → EReal := tileLogit (xblk m c t) (wblk m c t) r
def tw (c : Dev nD) (t : Fin cfg0.N) (r : Fin 1024) : BitVec 32 := tblk m c t (ix2 r (0 : Fin 1))

/-- At a row block's first tile the three running values start from (−∞, 0, 0). -/
theorem first (c : Dev nD) (t : Fin cfg0.N) (h0 : t.val % 25 = 0) (r : Fin 1024) :
    mAt m c t.val t.isLt r = stepM ⊥ (tl m c t r)
    ∧ lAt m c t.val t.isLt r = stepL ⊥ 0 (tl m c t r)
    ∧ pAt m c t.val t.isLt r = stepP 0 (hitW (tw m c t r) (t.val % 25)) (tl m c t r) := by
  have h1 : ¬t.val % 25 = 24 := by omega
  unfold mAt lAt pAt
  rw [outsAt0_A m c t h0 h1]
  dsimp only
  refine ⟨?_, ?_, ?_⟩
  · refine (congrFun (sout_A_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)) (ix2 r (0 : Fin 1))).trans ?_
    refine (pay9_apply (xblk m c t) (wblk m c t) (k0_pay3 (F := Ideal)) r).trans ?_
    rw [pay3_apply]; rfl
  · refine (congrFun (sout_A_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)) (ix2 r (0 : Fin 1))).trans ?_
    refine (pay8_apply (xblk m c t) (wblk m c t) (k0_pay3 (F := Ideal)) (k0_pay4 (F := Ideal)) r).trans ?_
    rw [pay3_apply, pay4_apply]; rfl
  · refine (congrFun (sout_A_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)) (ix2 r (0 : Fin 1))).trans ?_
    refine (pay1_apply (grid0.coords t) (xblk m c t) (wblk m c t) (tblk m c t) (k0_pay5 (F := Ideal)) r).trans ?_
    rw [pay5_apply, coord1]; rfl

/-- At a later tile they step from what the point before left. -/
theorem next (c : Dev nD) (t : Fin cfg0.N) (h0 : ¬t.val % 25 = 0) (r : Fin 1024) :
    mAt m c t.val t.isLt r = stepM (mAt m c (t.val - 1) (Nat.lt_of_le_of_lt (Nat.sub_le _ _) t.isLt) r) (tl m c t r)
    ∧ lAt m c t.val t.isLt r = stepL (mAt m c (t.val - 1) (Nat.lt_of_le_of_lt (Nat.sub_le _ _) t.isLt) r)
        (lAt m c (t.val - 1) (Nat.lt_of_le_of_lt (Nat.sub_le _ _) t.isLt) r) (tl m c t r)
    ∧ pAt m c t.val t.isLt r = stepP (pAt m c (t.val - 1) (Nat.lt_of_le_of_lt (Nat.sub_le _ _) t.isLt) r)
        (hitW (tw m c t r) (t.val % 25)) (tl m c t r) := by
  unfold mAt lAt pAt
  by_cases h1 : t.val % 25 = 24
  · rw [outsAt0_C m c t h0 h1]
    dsimp only
    refine ⟨?_, ?_, ?_⟩
    · refine (congrFun (sout_C_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r (0 : Fin 1))).trans ?_
      exact pay9_apply (xblk m c t) (wblk m c t) _ r
    · refine (congrFun (sout_C_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r (0 : Fin 1))).trans ?_
      exact pay8_apply (xblk m c t) (wblk m c t) _ _ r
    · refine (congrFun (sout_C_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r (0 : Fin 1))).trans ?_
      refine (pay1_apply (grid0.coords t) (xblk m c t) (wblk m c t) (tblk m c t) _ r).trans ?_
      rw [coord1]; rfl
  · rw [outsAt0_B m c t h0 h1]
    dsimp only
    refine ⟨?_, ?_, ?_⟩
    · refine (congrFun (sout_B_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r (0 : Fin 1))).trans ?_
      exact pay9_apply (xblk m c t) (wblk m c t) _ r
    · refine (congrFun (sout_B_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r (0 : Fin 1))).trans ?_
      exact pay8_apply (xblk m c t) (wblk m c t) _ _ r
    · refine (congrFun (sout_B_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r (0 : Fin 1))).trans ?_
      refine (pay1_apply (grid0.coords t) (xblk m c t) (wblk m c t) (tblk m c t) _ r).trans ?_
      rw [coord1]; rfl

/-- At a row block's last tile the output block holds the closing value of the running values just stored. -/
theorem last (c : Dev nD) (t : Fin cfg0.N) (h24 : t.val % 25 = 24) (r : Fin 1024) :
    oAt m c t.val t.isLt r
      = Ideal.log (lAt m c t.val t.isLt r)
        - (if validW (tw m c t r) then pAt m c t.val t.isLt r - mAt m c t.val t.isLt r else 0) := by
  have h0 : ¬t.val % 25 = 0 := by omega
  unfold oAt mAt lAt pAt
  rw [outsAt0_C m c t h0 h24]
  dsimp only
  rw [sout_C_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h24) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout_C_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h24) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout_C_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h24) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  refine (congrFun (out_C_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h24) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r (0 : Fin 1))).trans ?_
  exact pay2_apply (tblk m c t) _ _ _ r

end Cert.KernelIdeal.Running

end
-- ==== Proof.Finite.lean ====
/-
  The precondition read: when `finite_inputs` holds of a memory, every entry of the activations and of the weights is a real
  number (|x| < +∞ over the extended reals leaves neither +∞ nor −∞).
-/
import proofs.«422961_j18030272709050_2_alg».proof.Defs
import proofs.«422961_j18030272709050_2_alg».proof.Proof.Gen.KernelIdeal
import proofs.«422961_j18030272709050_2_alg».proof.Proof.Gen.Pre_finite_inputs
import Idealize.ShloMosaic.Lib.ReduceAll
import Idealize.ShloMosaic.Lib.ValueIdx

noncomputable section

namespace Cert.KernelIdeal.Finite

open Cert.KernelIdeal Idealize.ShloMosaic Idealize.ShloMosaic.TcCoe Idealize.SL.Sem

/-- The rank-0 shape has one index. -/
private instance subsingleton_idx0 : Subsingleton Cert.Pre_finite_inputs.S_.Idx :=
  ⟨fun a b => funext fun d => d.elim0⟩

/-- The f32 pattern of +∞, read at the extended reals, is ⊤. -/
private theorem ofBits_inf : Ideal.ofBits .f32 0x7F800000#32 = (⊤ : EReal) := by
  simp [Ideal.ofBits, Ideal.ieee]

/-- A one-bit word made from a Boolean is 1 exactly when the Boolean is true. -/
private theorem ofBool_eq_one (b : Bool) : BitVec.ofBool b = 1#1 ↔ b = true := by cases b <;> decide

/-- Over the extended reals, |x| = max x (−x) below +∞ leaves x a real: x = +∞ gives |x| = +∞, and x = −∞ gives −x = +∞. -/
private theorem real_of_abs_lt_top (x : EReal) (h : max x (-x) < ⊤) : ∃ a : ℝ, x = (a : EReal) := by
  induction x using EReal.rec with
  | bot => simp at h
  | coe a => exact ⟨a, rfl⟩
  | top => simp at h

/-- One "every |x| < +∞" decoded, over any shape: where the comparison of |x| with the broadcast +∞ is 1 at an
    index, the entry there is a real. -/
private theorem real_of_cmp {S : Shape} (x : FVec Ideal S .f32)
    (hb : Cert.Pre_finite_inputs.S_.BroadcastsInDim S (![] : Fin 0 → Fin S.rank)) (i : S.Idx)
    (h : cmpf .olt (Host.absf x) (broadcastInDim S ![] hb (constant Cert.Pre_finite_inputs.S_ .f32 0x7F800000#32)) i = 1#1) :
    ∃ a : ℝ, x i = (a : EReal) := by
  apply real_of_abs_lt_top
  have h' : Ideal.cmp .olt (max (x i : EReal) (-(x i : EReal))) (Ideal.ofBits .f32 0x7F800000#32) = 1#1 := h
  rw [ofBits_inf] at h'
  unfold Ideal.cmp at h'
  rw [ofBool_eq_one] at h'
  simpa using h'

/-- Under the precondition every activation entry and every weight entry is (the coercion of) a real number. -/
theorem real_of_pre (m : (ℓ : Loc nD τ sig) → Buf (Elt Ideal) ℓ) (hpre : Cert.Pre_KernelIdeal m) (c : Dev nD) :
    (∀ i : S2048x2x1024.Idx, ∃ a : ℝ, m ((c.tc : Thread nD τ).loc main_arg0) i = (a : EReal))
    ∧ (∀ i : S32000x1024.Idx, ∃ a : ℝ, m ((c.tc : Thread nD τ).loc main_arg1) i = (a : EReal)) := by
  have h := congrFun (hpre c) ValueIdx.ix0
  dsimp only [Cert.Pre_finite_inputs.fn] at h
  obtain ⟨h0, h1⟩ := IntOp.andi_eq_one.1 h
  refine ⟨fun i => ?_, fun i => ?_⟩
  · exact real_of_cmp _ _ i (Host.reduce_andi_all _ _ _ _ _ h0 i)
  · exact real_of_cmp _ _ i (Host.reduce_andi_all _ _ _ _ _ h1 i)

end Cert.KernelIdeal.Finite

end
-- ==== Proof.RowChain.lean ====
/-
  The chains at a row, and the output at a row block's last tile as the row's loss.
  Flattened row R = 1024 i + r has logits  logit R v = Σ_h x (R / 2, R % 2, h) · w (v, h)  and target word  t (R / 2, R % 2).
  The tile's logits the body forms at grid point 25 i + k are  logit R (1280 k + j), so the running values after that point are
  the chains of Spec.lean after tile k; at k = 24 the output is the closing expression of the chains, and the row law
  (every logit real: a finite sum of products of real entries) makes it the row's loss.
-/
import proofs.«422961_j18030272709050_2_alg».proof.Proof.Running
import proofs.«422961_j18030272709050_2_alg».proof.Proof.Finite

set_option maxRecDepth 16384

noncomputable section

namespace Cert.KernelIdeal.Running

open Cert.KernelIdeal Cert.KernelIdeal.Gen Cert.KernelIdeal.PayIdx Cert.KernelIdeal.Blocks Cert.CrossEntropy
open Idealize.ShloMosaic Idealize.ShloMosaic.TcCoe Idealize.SL.Sem Idealize.ShloMosaic.ValueIdx

variable (m : (ℓ : Loc nD τ sig) → Buf (Elt Ideal) ℓ)

/-- The logits of flattened row R over the vocabulary, its tiles, and its target word. -/
def rowLogit (c : Dev nD) (R : Fin 4096) (v : Fin 32000) : EReal :=
  logit (m ((c.tc : Thread nD τ).loc main_arg0)) (m ((c.tc : Thread nD τ).loc main_arg1))
    (⟨R.val / 2, by have := R.isLt; omega⟩ : Fin 2048) (⟨R.val % 2, Nat.mod_lt _ (by norm_num)⟩ : Fin 2) v
def rowTile (c : Dev nD) (R : Fin 4096) (k : ℕ) (j : Fin 1280) : EReal := rowLogit m c R (vocab k j)
def rowWord (c : Dev nD) (R : Fin 4096) : BitVec 32 :=
  m ((c.tc : Thread nD τ).loc main_arg2)
    (ix2 (⟨R.val / 2, by have := R.isLt; omega⟩ : Fin 2048) (⟨R.val % 2, Nat.mod_lt _ (by norm_num)⟩ : Fin 2))

/-- The tile's logits at point t are the row's logits of tile t mod 25. -/
theorem tl_eq (c : Dev nD) (t : Fin cfg0.N) (r : Fin 1024) : tl m c t r = rowTile m c (rowOf t r) (t.val % 25) := by
  funext j
  unfold tl tileLogit rowTile rowLogit logit
  refine Finset.sum_congr rfl fun h _ => ?_
  rw [xblk_apply, wblk_apply]
  have hk : t.val % 25 < 25 := Nat.mod_lt _ (by norm_num)
  have hj := j.isLt
  have e : (⟨1280 * (t.val % 25) + j.val, by omega⟩ : Fin 32000) = vocab (t.val % 25) j :=
    Fin.ext (by show 1280 * (t.val % 25) + j.val = (1280 * (t.val % 25) + j.val) % 32000; exact (Nat.mod_eq_of_lt (by omega)).symm)
  rw [e]

/-- The target word of row r at point t is the row's target word. -/
theorem tw_eq (c : Dev nD) (t : Fin cfg0.N) (r : Fin 1024) : tw m c t r = rowWord m c (rowOf t r) := by
  unfold tw rowWord
  exact tblk_apply m c t r

/-- Within a row block the flattened row of r does not change from one point to the next. -/
theorem rowOf_succ (n : ℕ) (h : n + 1 < cfg0.N) (h0 : ¬(n + 1) % 25 = 0) (r : Fin 1024) :
    rowOf ⟨n + 1, h⟩ r = rowOf ⟨n, Nat.lt_of_succ_lt h⟩ r :=
  Fin.ext (by show 1024 * ((n + 1) / 25) + r.val = 1024 * (n / 25) + r.val; have : (n + 1) / 25 = n / 25 := by omega
              rw [this])

/-- THE CHAINS: after point n the running values at row r are the chains of the row's tiles after tile n mod 25. -/
theorem chain_at (c : Dev nD) : ∀ (n : ℕ) (h : n < cfg0.N) (r : Fin 1024),
    mAt m c n h r = chainM (rowTile m c (rowOf ⟨n, h⟩ r)) (n % 25)
    ∧ lAt m c n h r = chainL (rowTile m c (rowOf ⟨n, h⟩ r)) (n % 25)
    ∧ pAt m c n h r = chainP (fun k => hitW (rowWord m c (rowOf ⟨n, h⟩ r)) k) (rowTile m c (rowOf ⟨n, h⟩ r)) (n % 25)
  | 0, h, r => by
    obtain ⟨hm, hl, hp⟩ := first m c ⟨0, h⟩ rfl r
    rw [tl_eq] at hm hl hp
    rw [tw_eq] at hp
    exact ⟨hm, hl, hp⟩
  | n + 1, h, r => by
    by_cases h0 : (n + 1) % 25 = 0
    · obtain ⟨hm, hl, hp⟩ := first m c ⟨n + 1, h⟩ h0 r
      rw [tl_eq] at hm hl hp
      rw [tw_eq] at hp
      dsimp only at hm hl hp
      rw [h0] at hm hl hp ⊢
      exact ⟨hm, hl, hp⟩
    · obtain ⟨hm, hl, hp⟩ := next m c ⟨n + 1, h⟩ h0 r
      obtain ⟨im, il, ip⟩ := chain_at c n (Nat.lt_of_succ_lt h) r
      rw [tl_eq] at hm hl hp
      rw [tw_eq] at hp
      dsimp only at hm hl hp
      have e : (n + 1) % 25 = n % 25 + 1 := by omega
      rw [rowOf_succ n h h0 r] at hm hl hp ⊢
      rw [e] at hm hl hp ⊢
      refine ⟨hm.trans ?_, hl.trans ?_, hp.trans ?_⟩
      · show stepM (mAt m c n _ r) _ = _
        rw [im]; rfl
      · show stepL (mAt m c n _ r) (lAt m c n _ r) _ = _
        rw [im, il]; rfl
      · show stepP (pAt m c n _ r) _ _ = _
        rw [ip]; rfl

end Cert.KernelIdeal.Running

end
-- ==== Proof.RunValue.lean ====
/-
  What the run leaves in the result. The output block of row block i (rows 1024 i … 1024 i + 1023 of the [4096, 1] array) is
  written back once, after the block's last vocabulary tile (grid point 25 i + 24); the four blocks tile the array, so the
  array after the run is what those four points left, and the host's closing reshape reads flattened row 2 s + b at (s, b).
-/
import proofs.«422961_j18030272709050_2_alg».proof.Proof.Blocks

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The output window's block index at grid point t: row block t / 25 on the row axis, 0 on the unit axis. -/
private theorem outIndex : ∀ t : Fin cfg0.N, win0_3.index t (0 : Fin 2) = t.val / 25 ∧ win0_3.index t (1 : Fin 2) = 0 :=
  (by decide +kernel : ∀ t : Fin grid0.N, win0_3.index t (0 : Fin 2) = t.val / 25 ∧ win0_3.index t (1 : Fin 2) = 0)

/-- A block that agrees row by row with g at the flattened rows of point t is g read through the point's rectangle:
    row r of the block sits at row 1024 (t / 25) + r of the array. -/
private theorem block_read (g : S4096x1.Idx → EReal) (X : Vec Ideal S1024x1 .f32) (t : Fin cfg0.N)
    (h : ∀ r : Fin 1024, X (ix2 r (0 : Fin 1)) = g (ix2 (rowOf t r) (0 : Fin 1))) (y : S1024x1.Idx) :
    X y = g (((cfg0.win 3).blk t).view.emb y) := by
  obtain ⟨r, z, rfl⟩ : ∃ (r : Fin 1024) (z : Fin 1), y = ix2 r z := ⟨y 0, y 1, eq_ix2 y⟩
  obtain rfl : z = 0 := Subsingleton.elim _ _
  rw [h r]
  congr 1
  funext a
  apply Fin.ext
  match a with
  | ⟨0, _⟩ =>
    show 1024 * (t.val / 25) + r.val = win0_3.index t (0 : Fin 2) * 1024 + 1 * r.val
    rw [(outIndex t).1]; omega
  | ⟨1, _⟩ =>
    show 0 = win0_3.index t (1 : Fin 2) * 1 + 1 * 0
    rw [(outIndex t).2]

/-- What a last-tile point writes back is its row block of G3. -/
private theorem flushed_eq (G3 : Dev nD → S4096x1.Idx → EReal)
    (hG : ∀ (c : Dev nD) (t : Fin cfg0.N), t.val % 25 = 24 → ∀ r : Fin 1024,
      ((outsAt0 m c t.val t.isLt).1 : Vec Ideal S1024x1 .f32) (ix2 r (0 : Fin 1)) = G3 c (ix2 (rowOf t r) (0 : Fin 1)))
    (c : Dev nD) (t : Fin cfg0.N) (hf : (cfg0.win 3).flush t = true) :
    (dats m 0 c).flushed 3 t = ((cfg0.win 3).blk t).view.read (Elt Ideal) (G3 c) := by
  have h24 : t.val % 25 = 24 := (flush0_3 t).mp hf
  show (cfg0.win 3).cut (grid0.coords t) ((dats m 0 c).after 3 t) = _
  rw [after0_3]
  funext y
  exact block_read (G3 c) (outsAt0 m c t.val t.isLt).1 t (hG c t h24) y

/-- Every flattened row R lies in the block written back at the last-tile point of its row block, 25 (R / 1024) + 24. -/
private theorem cover (i : S4096x1.Idx) :
    ∃ t : Fin cfg0.N, (cfg0.win 3).flush t = true ∧ i ∈ ((cfg0.win 3).blk t).view.set := by
  have hN : cfg0.N = 100 := N_0
  have hi0 : (i 0).val < 4096 := (i 0).isLt
  have hi1 : (i 1).val < 1 := (i 1).isLt
  have ht : 25 * ((i 0).val / 1024) + 24 < cfg0.N := by omega
  have hq : (⟨25 * ((i 0).val / 1024) + 24, ht⟩ : Fin cfg0.N).val / 25 = (i 0).val / 1024 := by
    show (25 * ((i 0).val / 1024) + 24) / 25 = (i 0).val / 1024
    omega
  refine ⟨⟨25 * ((i 0).val / 1024) + 24, ht⟩, (flush0_3 _).mpr (by show (25 * ((i 0).val / 1024) + 24) % 25 = 24; omega), ?_⟩
  show i ∈ ((View.whole main_v3).slice (win0_3.rect ⟨25 * ((i 0).val / 1024) + 24, ht⟩)).set
  rw [View.set_slice_whole, Rect.mem_set_unit]
  intro a
  match a with
  | ⟨0, _⟩ =>
    show win0_3.index ⟨25 * ((i 0).val / 1024) + 24, ht⟩ (0 : Fin 2) * 1024 ≤ (i 0).val
      ∧ (i 0).val < win0_3.index ⟨25 * ((i 0).val / 1024) + 24, ht⟩ (0 : Fin 2) * 1024 + 1024
    rw [(outIndex _).1, hq]; omega
  | ⟨1, _⟩ =>
    show win0_3.index ⟨25 * ((i 0).val / 1024) + 24, ht⟩ (1 : Fin 2) * 1 ≤ (i 1).val
      ∧ (i 1).val < win0_3.index ⟨25 * ((i 0).val / 1024) + 24, ht⟩ (1 : Fin 2) * 1 + 1
    rw [(outIndex _).2]; omega

/-- So the [4096, 1] array ends holding G3. -/
private theorem final (G3 : Dev nD → S4096x1.Idx → EReal)
    (hG : ∀ (c : Dev nD) (t : Fin cfg0.N), t.val % 25 = 24 → ∀ r : Fin 1024,
      ((outsAt0 m c t.val t.isLt).1 : Vec Ideal S1024x1 .f32) (ix2 r (0 : Fin 1)) = G3 c (ix2 (rowOf t r) (0 : Fin 1)))
    (c : Dev nD) : (dats m 0 c).arrAt 3 cfg0.N = G3 c :=
  (dats m 0 c).arrAt_eq_of_cover 3 (G3 c) (fun t hf => flushed_eq m G3 hG c t hf) cover

/-- The reshape [4096, 1] → [2048, 2] of a column g reads flattened row 2 s + b at (s, b): the same row-major position. -/
private theorem reshape_read (g : S4096x1.Idx → EReal) (i : S2048x2.Idx) :
    shapeCast S2048x2 g shapeCasts_S4096x1_S2048x2 i
      = g (ix2 (⟨2 * (i 0).val + (i 1).val, by have h0 : (i 0).val < 2048 := (i 0).isLt; have h1 : (i 1).val < 2 := (i 1).isLt; omega⟩ : Fin 4096) (0 : Fin 1)) := by
  refine shapeCast_apply _ _ i _ ?_
  rw [Shape.rowMajor_val_two, Shape.rowMajor_val_two]
  show (2 * (i 0).val + (i 1).val) * 1 + 0 = (i 0).val * 2 + (i 1).val
  omega

/-- The host's closing reshape applied to what the region left: the result buffer at (s, b) is G3 at flattened row 2 s + b. -/
private theorem tail_result (G3 : Dev nD → S4096x1.Idx → EReal)
    (hG : ∀ (c : Dev nD) (t : Fin cfg0.N), t.val % 25 = 24 → ∀ r : Fin 1024,
      ((outsAt0 m c t.val t.isLt).1 : Vec Ideal S1024x1 .f32) (ix2 r (0 : Fin 1)) = G3 c (ix2 (rowOf t r) (0 : Fin 1)))
    (c : Dev nD) :
    Pipeline.afterTail₀ cfgs (dats m) 0 (V0 m) [hostOps1] c main_v4
      = (fun i : S2048x2.Idx => G3 c (ix2 (⟨2 * (i 0).val + (i 1).val, by have h0 : (i 0).val < 2048 := (i 0).isLt; have h1 : (i 1).val < 2 := (i 1).isLt; omega⟩ : Fin 4096) (0 : Fin 1))) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3) = G3 c :=
    (Pipeline.withArrays_arr spec0 launch0.win.arr_inj c _ _ 3).trans (final m G3 hG c)
  rw [e]
  funext i
  exact reshape_read (G3 c) i

/-- THE RUN, READ. If at every last-tile point (t mod 25 = 24) the output block the body leaves is, row by row, a function
    `G3` of the flattened row, then every weakly fair execution of the program ends with the [2048, 2] result at
    (s, b) ↦ G3 (2 s + b) and the three arguments unchanged. -/
theorem run_value (G3 : Dev nD → S4096x1.Idx → EReal)
    (hG : ∀ (c : Dev nD) (t : Fin cfg0.N), t.val % 25 = 24 → ∀ r : Fin 1024,
      ((outsAt0 m c t.val t.isLt).1 : Vec Ideal S1024x1 .f32) (ix2 r (0 : Fin 1)) = G3 c (ix2 (rowOf t r) (0 : Fin 1))) :
    θ_run defs (onTc (τ := τ) (main (F := Ideal))) ⟨m, fun _ => 0, ρ⟩ (fun r => ∀ c : Dev nD,
      r.2.mem ((c.tc : Thread nD τ).loc main_v4)
          = (fun i : S2048x2.Idx => G3 c (ix2 (⟨2 * (i 0).val + (i 1).val, by have h0 : (i 0).val < 2048 := (i 0).isLt; have h1 : (i 1).val < 2 := (i 1).isLt; omega⟩ : Fin 4096) (0 : Fin 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, ?_⟩) (run_main m ρ)
  · exact ((h c).2 main_v4 (Pipeline.mem_restRefs_of main_v4 (by decide) (by decide))).trans (tail_result m G3 hG c)
  · exact ((h c).2 main_arg0 (Pipeline.mem_restRefs_of main_arg0 (by decide) (by decide))).trans (W_main_arg0 m (dats m) c)
  · exact ((h c).1 1).trans (((dats m 0 c).arrAt_in 1 rfl _).trans ((A_eq m c 1).trans (V_main_arg1 m c)))
  · exact ((h c).2 main_arg2 (Pipeline.mem_restRefs_of main_arg2 (by decide) (by decide))).trans (W_main_arg2 m (dats m) c)

end Cert.KernelIdeal.Blocks

end
-- ==== Proof.KernelValue.lean ====
/-
  The kernel's result: the loss of every row.
  Under the precondition every logit is a real number (a finite sum of products of real entries), so at a row block's last
  tile the output block holds each row's loss (the chains of RowChain.lean, the row law); those four blocks are the [4096, 1]
  result, and the closing reshape reads flattened row 2 s + b at (s, b), which is row (s, b) of the arguments.
-/
import proofs.«422961_j18030272709050_2_alg».proof.Proof.RowChain
import proofs.«422961_j18030272709050_2_alg».proof.Proof.RunValue

set_option maxRecDepth 16384

noncomputable section

namespace Cert.KernelIdeal.Running

open Cert.KernelIdeal Cert.KernelIdeal.Gen Cert.KernelIdeal.PayIdx Cert.KernelIdeal.Blocks Cert.CrossEntropy
open Idealize.ShloMosaic Idealize.ShloMosaic.TcCoe Idealize.SL.Sem Idealize.ShloMosaic.ValueIdx

variable (m : (ℓ : Loc nD τ sig) → Buf (Elt Ideal) ℓ) (ρ : Dev nD → PrngReg)

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Under the precondition the logits of a row are real numbers. -/
theorem rowLogit_real (hpre : Cert.Pre_KernelIdeal m) (c : Dev nD) (R : Fin 4096) :
    ∃ σ : Fin 32000 → ℝ, rowLogit m c R = fun v => ((σ v : ℝ) : EReal) := by
  obtain ⟨hx, hw⟩ := Finite.real_of_pre m hpre c
  choose fx hfx using hx
  choose fw hfw using hw
  refine ⟨fun v => ∑ h : Fin 1024, fx (ix3 (⟨R.val / 2, by have := R.isLt; omega⟩ : Fin 2048) (⟨R.val % 2, Nat.mod_lt _ (by norm_num)⟩ : Fin 2) h) * fw (ix2 v h), funext fun v => ?_⟩
  unfold rowLogit logit
  rw [coe_sum]
  refine Finset.sum_congr rfl fun h _ => ?_
  rw [hfx, hfw, EReal.coe_mul]

/-- The result as a function of the flattened row: the row's loss. -/
def rowResult (c : Dev nD) : S4096x1.Idx → EReal := fun y =>
  rowLoss (rowLogit m c ⟨(y 0).val, (y 0).isLt⟩) (rowWord m c ⟨(y 0).val, (y 0).isLt⟩)

/-- At a row block's last tile the output block holds each row's loss. -/
theorem out_eq (hpre : Cert.Pre_KernelIdeal m) (c : Dev nD) (t : Fin cfg0.N) (h24 : t.val % 25 = 24) (r : Fin 1024) :
    ((outsAt0 m c t.val t.isLt).1 : Vec Ideal S1024x1 .f32) (ix2 r (0 : Fin 1)) = rowResult m c (ix2 (rowOf t r) (0 : Fin 1)) := by
  obtain ⟨σ, hσ⟩ := rowLogit_real m hpre c (rowOf t r)
  obtain ⟨im, il, ip⟩ := chain_at m c t.val t.isLt r
  have hl := last m c t h24 r
  unfold oAt at hl
  rw [hl, il, ip, im, tw_eq, h24]
  have law := online_eq σ (rowWord m c (rowOf t r)) (rowTile m c (rowOf t r))
    (fun k _ j => by unfold rowTile; rw [hσ]) (fun k => hitW (rowWord m c (rowOf t r)) k)
    (fun k hk j => hitW_iff _ k hk j) (validW (rowWord m c (rowOf t r))) (validW_iff _)
  refine law.trans ?_
  unfold rowResult
  rw [← hσ]

/-- THE KERNEL'S RUN: under the precondition every weakly fair execution ends with the result at the loss of every row and
    the arguments unchanged. -/
theorem kernel_run (hpre : Cert.Pre_KernelIdeal m) :
    θ_run defs (onTc (τ := τ) (main (F := Ideal))) ⟨m, fun _ => 0, ρ⟩ (fun r => ∀ c : Dev nD,
      r.2.mem ((c.tc : Thread nD τ).loc main_v4)
          = loss (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨(h c).1.trans (funext fun i => ?_), (h c).2⟩)
    (run_value m ρ (rowResult m) (fun c t h24 r => out_eq m hpre c t h24 r))
  have h0 : (i 0).val < 2048 := (i 0).isLt
  have h1 : (i 1).val < 2 := (i 1).isLt
  have e0 : (2 * (i 0).val + (i 1).val) / 2 = (i 0).val := by omega
  have e1 : (2 * (i 0).val + (i 1).val) % 2 = (i 1).val := by omega
  have ei : (ix2 (⟨(i 0).val, h0⟩ : Fin 2048) (⟨(i 1).val, h1⟩ : Fin 2) : S2048x2.Idx) = i :=
    funext fun a => by match a with | ⟨0, _⟩ => rfl | ⟨1, _⟩ => rfl
  show rowLoss (rowLogit m c ⟨2 * (i 0).val + (i 1).val, _⟩) (rowWord m c ⟨2 * (i 0).val + (i 1).val, _⟩) = _
  unfold rowLogit rowWord loss
  simp only [e0, e1]
  rw [ei]

end Cert.KernelIdeal.Running

end
-- ==== Proof.RefRead.lean ====
/-
  The reference's run and its read-at-an-index lemmas, brought in for the modules that state what the reference computes.
-/
import proofs.«422961_j18030272709050_2_alg».proof.Proof.Gen.ReferenceIdeal.Run
import proofs.«422961_j18030272709050_2_alg».proof.Proof.Gen.ReferenceIdeal.Read
-- ==== Proof.RefValue.lean ====
/-
  What the reference computes, index by index: the loss of every row (Spec.lean's `loss`).
  Its logits are the inner products of the einsum, its maximum the reduce from −∞ over the vocabulary, its sum the reduce
  from 0 of the shifted exponentials; the masked target is a vocabulary index, so the gather along the vocabulary axis reads
  the shifted logit at it (the negative-index wrap and the out-of-range fill never apply), and the mask turns it to zero
  when the target is not a vocabulary index.
-/
import proofs.«422961_j18030272709050_2_alg».proof.Proof.Spec
import proofs.«422961_j18030272709050_2_alg».proof.Proof.RefRead

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.CrossEntropy

/-! ## The float side: logits, row maximum, shifted logits, the sum of exponentials -/

/-- The vocabulary axis of [2048, 2, 32000] dropped leaves [2048, 2]; the last axis of [2048, 2, 1, 1] dropped leaves
    [2048, 2, 1]. -/
theorem dropVocab : S2048x2x32000.Reduces [2] S2048x2 := by decide
theorem dropLast : S2048x2x1x1.Reduces [3] S2048x2x1 := by decide

/-- The einsum at (s, b, v) is the inner product of activation row (s, b) with weight row v. -/
theorem logits_apply (x0 : (⟨S2048x2x1024, .f32⟩ : BufTy).Contents (Elt Ideal)) (x1 : (⟨S32000x1024, .f32⟩ : BufTy).Contents (Elt Ideal))
    (s : Fin 2048) (b : Fin 2) (v : Fin 32000) :
    Read.val_main_v0 (F := Ideal) x0 x1 (ix3 s b v) = logit x0 x1 s b v := by
  rw [Read.val_main_v0_apply]
  unfold logit
  refine Finset.sum_congr rfl fun h _ => ?_
  have el : Read.lidx_main_v0 (ix3 s b v) h = ix3 s b h :=
    funext fun a => Fin.ext (by match a with | ⟨0, _⟩ => rfl | ⟨1, _⟩ => rfl | ⟨2, _⟩ => rfl)
  have er : Read.ridx_main_v0 (ix3 s b v) h = ix2 v h :=
    funext fun a => Fin.ext (by match a with | ⟨0, _⟩ => rfl | ⟨1, _⟩ => rfl)
  rw [el, er]

/-- The reduce by maximum from −∞ over the vocabulary is the row's maximum. -/
theorem rowmax_apply (x0 : (⟨S2048x2x1024, .f32⟩ : BufTy).Contents (Elt Ideal)) (x1 : (⟨S32000x1024, .f32⟩ : BufTy).Contents (Elt Ideal))
    (s : Fin 2048) (b : Fin 2) :
    Read.val_main_v1 (F := Ideal) x0 x1 (ix2 s b) = rowMax (logit x0 x1 s b) := by
  unfold Read.val_main_v1
  rw [Host.reduce_eq_fold_single (FloatOps.maximumf (F := Ideal) (φ := .f32)) _ _ reducesTo_S2048x2x32000_S2048x2_d2 dropVocab h_S_ (ix2 s b)]
  have hbot : Read.val_main_cst (F := Ideal) (Shape.Idx.first h_S_) = (⊥ : EReal) := by
    rw [Read.val_main_cst_apply]
    simp [Ideal.ofBits, Ideal.ieee]
  have hf : (Read.val_main_v0 (F := Ideal) x0 x1 ∘ dropVocab.lift (ix2 s b)) = logit x0 x1 s b := by
    funext k
    have e : dropVocab.lift (ix2 s b) k = ix3 s b k :=
      funext fun a => Fin.ext (by match a with | ⟨0, _⟩ => rfl | ⟨1, _⟩ => rfl | ⟨2, _⟩ => rfl)
    show Read.val_main_v0 (F := Ideal) x0 x1 (dropVocab.lift (ix2 s b) k) = _
    rw [e]
    exact logits_apply x0 x1 s b k
  rw [hbot, hf]
  rfl

/-- The shifted logit at (s, b, v): the logit minus the row's maximum (broadcast back along the vocabulary). -/
theorem shifted_apply (x0 : (⟨S2048x2x1024, .f32⟩ : BufTy).Contents (Elt Ideal)) (x1 : (⟨S32000x1024, .f32⟩ : BufTy).Contents (Elt Ideal))
    (s : Fin 2048) (b : Fin 2) (v : Fin 32000) :
    Read.val_main_v4 (F := Ideal) x0 x1 (ix3 s b v) = logit x0 x1 s b v - rowMax (logit x0 x1 s b) := by
  have e : Read.idx_main_v2 (Read.idx_main_v3 (ix3 s b v)) = ix2 s b :=
    funext fun a => Fin.ext (by match a with | ⟨0, _⟩ => rfl | ⟨1, _⟩ => rfl)
  rw [Read.val_main_v4_apply, Read.val_main_v3_apply, Read.val_main_v2_apply, e, logits_apply, rowmax_apply]
  rfl

/-- The reduce by addition from 0 of the exponentials of the shifted logits. -/
theorem sumexp_apply (x0 : (⟨S2048x2x1024, .f32⟩ : BufTy).Contents (Elt Ideal)) (x1 : (⟨S32000x1024, .f32⟩ : BufTy).Contents (Elt Ideal))
    (s : Fin 2048) (b : Fin 2) :
    Read.val_main_v16 (F := Ideal) x0 x1 (ix2 s b)
      = 0 + ∑ v : Fin 32000, Ideal.exp (logit x0 x1 s b v - rowMax (logit x0 x1 s b)) := by
  rw [Read.val_main_v16_apply, Read.val_main_cst_3_apply, Ideal.ofBits_def, Ideal.ofBits_zero_f32]
  refine congrArg (0 + ·) (Finset.sum_congr rfl fun v _ => ?_)
  have e : Read.idx_main_v16 (ix2 s b) v = ix3 s b v :=
    funext fun a => Fin.ext (by match a with | ⟨0, _⟩ => rfl | ⟨1, _⟩ => rfl | ⟨2, _⟩ => rfl)
  rw [e, Read.val_main_v15_apply, shifted_apply]
  rfl

/-! ## The integer side: the mask, the masked target, the gather's start index and its range check -/

/-- The mask word of a target: 1 when the target, read signed, is negative or at least 32000. -/
def maskWord (t : BitVec 32) : BitVec 1 := IntOp.ori (IntOp.cmpi .slt t 0#32) (IntOp.cmpi .sge t 32000#32)
/-- The gather's start index: a negative index has the vocabulary's size added. -/
def wrapWord (u : BitVec 32) : BitVec 32 := Scalar.select (IntOp.cmpi .slt u 0#32) (IntOp.addi u 32000#32) u
/-- The gather's range check: 0 ≤ index ≤ 31999, read signed. -/
def rangeWord (u : BitVec 32) : BitVec 1 := IntOp.andi (IntOp.cmpi .sge u 0#32) (IntOp.cmpi .sle u 31999#32)

theorem toInt_zero : (0#32 : BitVec 32).toInt = 0 := by decide
theorem toInt_32000 : (32000#32 : BitVec 32).toInt = 32000 := by decide
theorem toInt_31999 : (31999#32 : BitVec 32).toInt = 31999 := by decide

/-- A word below 32000 reads the same signed and unsigned. -/
theorem toInt_of_lt {t : BitVec 32} (h : t.toNat < 32000) : t.toInt = t.toNat :=
  BitVec.toInt_eq_toNat_of_lt (by omega)

/-- A vocabulary index is not masked … -/
theorem maskWord_of_lt {t : BitVec 32} (h : t.toNat < 32000) : maskWord t = 0#1 := by
  refine eq_zero_of_ne_one fun h1 => ?_
  have ht := toInt_of_lt h
  rcases IntOp.ori_eq_one.mp h1 with h2 | h2
  · have h3 := IntOp.cmpi_slt.mp h2
    rw [ht, toInt_zero] at h3; omega
  · have h3 := IntOp.cmpi_sge.mp h2
    rw [ht, toInt_32000] at h3; omega

/-- … and every other word is: read signed it is negative or at least 32000. -/
theorem maskWord_of_not_lt {t : BitVec 32} (h : ¬ t.toNat < 32000) : maskWord t = 1#1 := by
  refine IntOp.ori_eq_one.mpr ?_
  have hc := BitVec.toInt_eq_toNat_cond t
  have hlt := t.isLt
  by_cases h2 : 2 * t.toNat < 2 ^ 32
  · right
    rw [IntOp.cmpi_sge, toInt_32000, hc, if_pos h2]; omega
  · left
    rw [IntOp.cmpi_slt, toInt_zero, hc, if_neg h2]; omega

/-- A vocabulary index is not wrapped … -/
theorem wrapWord_of_lt {t : BitVec 32} (h : t.toNat < 32000) : wrapWord t = t := by
  have h0 : IntOp.cmpi .slt t 0#32 = 0#1 := eq_zero_of_ne_one fun h1 => by
    have h3 := IntOp.cmpi_slt.mp h1
    rw [toInt_of_lt h, toInt_zero] at h3; omega
  unfold wrapWord
  rw [h0, select_zero]

/-- … and passes the range check. -/
theorem rangeWord_of_lt {t : BitVec 32} (h : t.toNat < 32000) : rangeWord t = 1#1 := by
  refine IntOp.andi_eq_one.mpr ⟨IntOp.cmpi_sge.mpr ?_, IntOp.cmpi_sle.mpr ?_⟩
  · rw [toInt_of_lt h, toInt_zero]; omega
  · rw [toInt_of_lt h, toInt_31999]; omega

/-- The mask at row (s, b) is the mask word of the row's target. -/
theorem mask_apply (x2 : (⟨S2048x2, .i32⟩ : BufTy).Contents (Elt Ideal)) (i : S2048x2.Idx) :
    Read.val_main_v9 (F := Ideal) x2 i = maskWord (x2 i) := by
  rw [Read.val_main_v9_apply, Read.val_main_v6_apply, Read.val_main_v8_apply, Read.val_main_v5_apply,
    Read.val_main_v7_apply, Read.val_main_c_apply, Read.val_main_c_0_apply]
  rfl

/-- The masked target, with its unit axis, at (s, b, 0): 0 where masked, else the target. -/
theorem mtarget_apply (x2 : (⟨S2048x2, .i32⟩ : BufTy).Contents (Elt Ideal)) (s : Fin 2048) (b : Fin 2) :
    Read.val_main_v11 (F := Ideal) x2 (ix3 s b (0 : Fin 1))
      = Scalar.select (maskWord (x2 (ix2 s b))) 0#32 (x2 (ix2 s b)) := by
  have e : Read.idx_main_v11 (ix3 s b (0 : Fin 1)) = ix2 s b :=
    funext fun a => Fin.ext (by match a with | ⟨0, _⟩ => rfl | ⟨1, _⟩ => rfl)
  rw [Read.val_main_v11_apply, e, Read.val_main_v10_apply, mask_apply, Read.val_main_call0_v1_apply,
    Read.val_main_call0_v0_apply, Read.val_main_c_1_apply]

/-- The gather's start indices at (s, b, 0, 0): the wrapped masked target. -/
theorem start_apply (x2 : (⟨S2048x2, .i32⟩ : BufTy).Contents (Elt Ideal)) (s : Fin 2048) (b : Fin 2) :
    Read.val_main_call1_v5 (F := Ideal) x2 (ix4 s b (0 : Fin 1) (0 : Fin 1))
      = wrapWord (Scalar.select (maskWord (x2 (ix2 s b))) 0#32 (x2 (ix2 s b))) := by
  have hb := b.isLt
  have e : Read.idx_main_call1_v5 (ix4 s b (0 : Fin 1) (0 : Fin 1)) = ix3 s b (0 : Fin 1) :=
    funext fun a => Fin.ext (by
      match a with
      | ⟨0, _⟩ => show (((s.val * 2 + b.val) * 1 + 0) * 1 + 0) / 2 = s.val; omega
      | ⟨1, _⟩ => show (((s.val * 2 + b.val) * 1 + 0) * 1 + 0) / 1 % 2 = b.val; omega
      | ⟨2, _⟩ => rfl)
  rw [Read.val_main_call1_v5_apply, e, Read.val_main_call1_v4_apply, Read.val_main_call1_v1_apply,
    Read.val_main_call1_v3_apply, Read.val_main_call1_v0_apply, Read.val_main_call1_v2_apply,
    Read.val_main_call1_c_apply, Read.val_main_call1_c_0_apply, mtarget_apply]
  rfl

/-- The range check at (s, b, 0, 0). -/
theorem range_apply (x2 : (⟨S2048x2, .i32⟩ : BufTy).Contents (Elt Ideal)) (s : Fin 2048) (b : Fin 2) :
    Read.val_main_call1_v11 (F := Ideal) x2 (ix4 s b (0 : Fin 1) (0 : Fin 1))
      = rangeWord (wrapWord (Scalar.select (maskWord (x2 (ix2 s b))) 0#32 (x2 (ix2 s b)))) := by
  rw [Read.val_main_call1_v11_apply, Read.val_main_call1_v7_apply, Read.val_main_call1_v10_apply,
    Read.val_main_call1_v6_apply, Read.val_main_call1_v9_apply, Read.val_main_call1_v8_apply,
    Read.val_main_call1_c_2_apply, Read.val_main_call1_c_1_apply, start_apply]
  rfl

/-! ## The gather along the vocabulary axis and the reduce of its range check over the unit axis -/

/-- The gather's dimension numbers: the row axes (s, b) are batching axes, the vocabulary axis is the one the start index
    names and is collapsed; the result keeps the start indices' first three axes. -/
abbrev gdims : GatherDims S2048x2x32000 S2048x2x1x1 S2048x2x1 := gather_S2048x2x32000_S2048x2x1x1_S2048x2x1_n_2_01_01_2_3_111

/-- On a batching axis the operand index is the result's coordinate … -/
theorem gidx_0 (j : S2048x2x1.Idx) (idx : IVec S2048x2x1x1 32) : (gdims.operandIdx j idx 0).val = (j 0).val := by
  show gdims.start j idx 0 + gdims.batchCoord j 0 + gdims.offCoord j 0 = _
  rw [GatherDims.start_batching gdims j idx 0 (by decide), GatherDims.offCoord_eq_zero gdims j 0 (by decide)]
  unfold GatherDims.batchCoord
  rw [dif_pos (by decide)]
  unfold GatherDims.siCoord
  simp only [Fin.val_cast, Nat.zero_add, Nat.add_zero]
  exact congrArg (fun x => (j x).val) (by decide)
theorem gidx_1 (j : S2048x2x1.Idx) (idx : IVec S2048x2x1x1 32) : (gdims.operandIdx j idx 1).val = (j 1).val := by
  show gdims.start j idx 1 + gdims.batchCoord j 1 + gdims.offCoord j 1 = _
  rw [GatherDims.start_batching gdims j idx 1 (by decide), GatherDims.offCoord_eq_zero gdims j 1 (by decide)]
  unfold GatherDims.batchCoord
  rw [dif_pos (by decide)]
  unfold GatherDims.siCoord
  simp only [Fin.val_cast, Nat.zero_add, Nat.add_zero]
  exact congrArg (fun x => (j x).val) (by decide)
/-- … and on the vocabulary axis it is the start index of the row, read signed and clamped into [0, 31999]. -/
theorem gidx_2 (s : Fin 2048) (b : Fin 2) (idx : IVec S2048x2x1x1 32) :
    (gdims.operandIdx (ix3 s b (0 : Fin 1)) idx 2).val = min (idx (ix4 s b (0 : Fin 1) (0 : Fin 1))).toInt.toNat 31999 := by
  generalize hj : (ix3 s b (0 : Fin 1) : S2048x2x1.Idx) = j
  show gdims.start j idx 2 + gdims.batchCoord j 2 + gdims.offCoord j 2 = _
  rw [GatherDims.batchCoord_eq_zero gdims j 2 (by decide), GatherDims.offCoord_eq_zero gdims j 2 (by decide)]
  unfold GatherDims.start
  rw [dif_pos (by decide)]
  have hsi : gdims.siIdx j ⟨List.idxOf (2 : Fin 3) gdims.startIndexMap, List.idxOf_lt_length_iff.2 (by decide)⟩
      = ix4 s b (0 : Fin 1) (0 : Fin 1) := by
    subst hj
    funext c; refine Fin.ext ?_
    match c with
    | ⟨0, _⟩ => rfl
    | ⟨1, _⟩ => rfl
    | ⟨2, _⟩ => rfl
    | ⟨3, _⟩ => rfl
  rw [hsi]
  rfl

/-- The gather read at (s, b, 0): the operand at (s, b, the start index read signed and clamped into the vocabulary). -/
theorem gather_apply {α : Type} (x : S2048x2x32000.Idx → α) (idx : IVec S2048x2x1x1 32) (s : Fin 2048) (b : Fin 2) :
    Host.gather gather_S2048x2x32000_S2048x2x1x1_S2048x2x1_n_2_01_01_2_3_111 x idx (ix3 s b (0 : Fin 1))
      = x (ix3 s b ⟨min (idx (ix4 s b (0 : Fin 1) (0 : Fin 1))).toInt.toNat 31999, by omega⟩) := by
  unfold Host.gather
  refine congrArg x (funext fun a => Fin.ext ?_)
  match a with
  | ⟨0, _⟩ => exact gidx_0 _ _
  | ⟨1, _⟩ => exact gidx_1 _ _
  | ⟨2, _⟩ => exact gidx_2 _ _ _

/-- A fold over a one-element range is one application of the operation. -/
theorem fold_fin1 {α : Type} (op : α → α → α) [Std.Commutative op] [Std.Associative op] (init : α) (f : Fin 1 → α) :
    (Finset.univ : Finset (Fin 1)).fold op init f = op (f 0) init := by
  rw [show (Finset.univ : Finset (Fin 1)) = {0} from rfl, Finset.fold_singleton]

/-- The reduce by `and` over the unit last axis, read at (s, b, 0): the one word of the row and the initial word. -/
theorem allreduce_apply (m : IVec S2048x2x1x1 1) (init : IVec S_ 1) (s : Fin 2048) (b : Fin 2) :
    Host.reduce IntOp.andi m init reducesTo_S2048x2x1x1_S2048x2x1_d3 h_S_ (ix3 s b (0 : Fin 1))
      = IntOp.andi (m (ix4 s b (0 : Fin 1) (0 : Fin 1))) (init ix0) := by
  rw [Host.reduce_eq_fold_single IntOp.andi m init reducesTo_S2048x2x1x1_S2048x2x1_d3 dropLast h_S_ (ix3 s b (0 : Fin 1))]
  refine (fold_fin1 IntOp.andi (init (Shape.Idx.first h_S_)) (m ∘ dropLast.lift (ix3 s b (0 : Fin 1)))).trans ?_
  have e : dropLast.lift (ix3 s b (0 : Fin 1)) (0 : Fin 1) = ix4 s b (0 : Fin 1) (0 : Fin 1) :=
    funext fun a => Fin.ext (by match a with | ⟨0, _⟩ => rfl | ⟨1, _⟩ => rfl | ⟨2, _⟩ => rfl | ⟨3, _⟩ => rfl)
  show IntOp.andi (m (dropLast.lift (ix3 s b (0 : Fin 1)) (0 : Fin 1))) (init (Shape.Idx.first h_S_)) = _
  rw [e, eq_ix0 (Shape.Idx.first h_S_)]

/-! ## The predicted logit and the loss -/

/-- The gathered, then masked, shifted logit of row (s, b): the shifted logit at the target when the target is a vocabulary
    index (the mask bit is 0, the start index is the target itself, in range), and 0 otherwise (the mask bit is 1, whatever
    the gather read). -/
theorem predicted_apply (x0 : (⟨S2048x2x1024, .f32⟩ : BufTy).Contents (Elt Ideal)) (x1 : (⟨S32000x1024, .f32⟩ : BufTy).Contents (Elt Ideal))
    (x2 : (⟨S2048x2, .i32⟩ : BufTy).Contents (Elt Ideal)) (s : Fin 2048) (b : Fin 2) :
    Read.val_main_v14 (F := Ideal) x0 x1 x2 (ix2 s b)
      = (if h : (x2 (ix2 s b)).toNat < 32000 then logit x0 x1 s b ⟨(x2 (ix2 s b)).toNat, h⟩ - rowMax (logit x0 x1 s b) else 0) := by
  have hzero : Read.val_main_call2_v1 (F := Ideal) (ix2 s b) = (0 : EReal) := by
    rw [Read.val_main_call2_v1_apply, Read.val_main_call2_v0_apply, Read.val_main_cst_2_apply, Ideal.ofBits_def,
      Ideal.ofBits_zero_f32]
  rw [Read.val_main_v14_apply, mask_apply, hzero]
  by_cases h : (x2 (ix2 s b)).toNat < 32000
  · have hb := b.isLt
    have e13 : Read.idx_main_v13 (ix2 s b) = ix3 s b (0 : Fin 1) :=
      funext fun a => Fin.ext (by
        match a with
        | ⟨0, _⟩ => show (s.val * 2 + b.val) / 2 = s.val; omega
        | ⟨1, _⟩ => show (s.val * 2 + b.val) / 1 % 2 = b.val; omega
        | ⟨2, _⟩ => rfl)
    have hstart : Read.val_main_call1_v5 (F := Ideal) x2 (ix4 s b (0 : Fin 1) (0 : Fin 1)) = x2 (ix2 s b) := by
      rw [start_apply, maskWord_of_lt h, select_zero, wrapWord_of_lt h]
    have hrange : Read.val_main_call1_v12 (F := Ideal) x2 (ix3 s b (0 : Fin 1)) = 1#1 := by
      unfold Read.val_main_call1_v12
      rw [allreduce_apply, range_apply, maskWord_of_lt h, select_zero, wrapWord_of_lt h, rangeWord_of_lt h,
        Read.val_main_call1_c_3_apply]
      rfl
    have hgather : Read.val_main_call1_v13 (F := Ideal) x0 x1 x2 (ix3 s b (0 : Fin 1))
        = logit x0 x1 s b ⟨(x2 (ix2 s b)).toNat, h⟩ - rowMax (logit x0 x1 s b) := by
      unfold Read.val_main_call1_v13
      rw [gather_apply, ← shifted_apply]
      refine congrArg (Read.val_main_v4 (F := Ideal) x0 x1) (congrArg (ix3 s b) (Fin.ext ?_))
      show min (Read.val_main_call1_v5 (F := Ideal) x2 (ix4 s b (0 : Fin 1) (0 : Fin 1))).toInt.toNat 31999 = (x2 (ix2 s b)).toNat
      rw [hstart, toInt_of_lt h]
      omega
    rw [dif_pos h, maskWord_of_lt h, select_zero, Read.val_main_v13_apply, e13, Read.val_main_v12_apply, hrange,
      select_one, hgather]
  · rw [dif_neg h, maskWord_of_not_lt h, select_one]

/-- The loss at row (s, b), with the row's coordinates named. -/
theorem loss_ix2 (x : SX.Idx → EReal) (w : SW.Idx → EReal) (t : ST.Idx → BitVec 32) (s : Fin 2048) (b : Fin 2) :
    loss x w t (ix2 s b) = rowLoss (logit x w s b) (t (ix2 s b)) := rfl

/-- The reference's last stage, at the extended reals, is the loss of every row. -/
theorem ref_eq_loss (x0 : (⟨S2048x2x1024, .f32⟩ : BufTy).Contents (Elt Ideal)) (x1 : (⟨S32000x1024, .f32⟩ : BufTy).Contents (Elt Ideal))
    (x2 : (⟨S2048x2, .i32⟩ : BufTy).Contents (Elt Ideal)) :
    Cert.ReferenceIdeal.Read.val_main_v18 (F := Ideal) x0 x1 x2 = Cert.CrossEntropy.loss x0 x1 x2 := by
  funext i
  obtain ⟨s, b, rfl⟩ : ∃ (s : Fin 2048) (b : Fin 2), i = ix2 s b := ⟨i 0, i 1, eq_ix2 i⟩
  rw [Read.val_main_v18_apply, Read.val_main_v17_apply, sumexp_apply, predicted_apply, Ideal.subf_def, Ideal.hostUnary_log_def]
  exact (loss_ix2 x0 x1 x2 s b).symm

end Cert.ReferenceIdeal.RefValue

end
-- ==== Proof.lean ====
/-
  The certificate: a fused cross-entropy kernel against its reference, over the extended reals.

  The kernel computes, for each of the 4096 flattened rows, log Σ_v exp (L v − max L) − (L τ − max L) (or − 0 when the target
  τ is not a vocabulary index) WITHOUT forming the row's 32000 logits at once: it walks the vocabulary in 25 tiles of 1280 and
  keeps a running maximum, a running sum of exponentials rescaled to that maximum, and a running target logit (Spec.lean, the
  running form; RowLaw.lean, that it equals the row's loss when the logits are real). The reference forms all the logits,
  takes the maximum, the shifted exponentials' sum, and gathers the shifted logit at the masked target (RefValue.lean).
  Under the precondition (all activations and weights finite) every logit is a real number (Finite.lean), which is where the
  law exp (a − b) · exp (b − c) = exp (a − c) applies.

  The three frames: the kernel's two programs by their generated frames; the reference's is its run with the result dropped.
  The idealization rewrote nothing, so `preserves` is trivial. The value claim: the kernel's run (KernelValue.lean) and the
  reference's run (its generated run and stages) both end at the loss of every row of arguments that agree.
-/
import proofs.«422961_j18030272709050_2_alg».proof.Defs
import proofs.«422961_j18030272709050_2_alg».proof.Proof.Gen.Kernel
import proofs.«422961_j18030272709050_2_alg».proof.Proof.Gen.Kernel.Skeleton
import proofs.«422961_j18030272709050_2_alg».proof.Proof.Gen.Kernel.Launch
import proofs.«422961_j18030272709050_2_alg».proof.Proof.Gen.Kernel.Points
import proofs.«422961_j18030272709050_2_alg».proof.Proof.Gen.Kernel.Frame
import proofs.«422961_j18030272709050_2_alg».proof.Proof.Gen.KernelIdeal
import proofs.«422961_j18030272709050_2_alg».proof.Proof.Gen.KernelIdeal.Skeleton
import proofs.«422961_j18030272709050_2_alg».proof.Proof.Gen.KernelIdeal.Launch
import proofs.«422961_j18030272709050_2_alg».proof.Proof.Gen.KernelIdeal.Points
import proofs.«422961_j18030272709050_2_alg».proof.Proof.Gen.KernelIdeal.Frame
import proofs.«422961_j18030272709050_2_alg».proof.Proof.Gen.ReferenceIdeal
import proofs.«422961_j18030272709050_2_alg».proof.Proof.Gen.Pre_finite_inputs
import proofs.«422961_j18030272709050_2_alg».proof.Proof.KernelValue
import proofs.«422961_j18030272709050_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the loss of every row: the kernel's by its running values and the row law, the reference's stage by
    stage; the arguments agree, so the two results are one array. -/
theorem algebraic : Cert.algebraic_KernelIdeal_ReferenceIdeal := by
  intro m ρ m' ρ' hpre hagree
  refine ⟨fun c => Cert.CrossEntropy.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Running.kernel_run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.ref_eq_loss, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
